-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S32768x64 : Shape := ⟨2, ![32768, 64]⟩
abbrev S32768 : Shape := ⟨1, ![32768]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S8192x64 .f32) (main_arg1 : FVec F S32768x64 .f32) (main_arg2 : FVec F S32768 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  main_v13
-- ==== Kernel.lean ====
abbrev S8192x64 : Shape := ⟨2, ![8192, 64]⟩
abbrev S32768x64 : Shape := ⟨2, ![32768, 64]⟩
abbrev S32768 : Shape := ⟨1, ![32768]⟩
abbrev S8192x1 : Shape := ⟨2, ![8192, 1]⟩
abbrev S1024x64 : Shape := ⟨2, ![1024, 64]⟩
abbrev S2048x64 : Shape := ⟨2, ![2048, 64]⟩
abbrev S2048 : Shape := ⟨1, ![2048]⟩
abbrev S1024x1 : Shape := ⟨2, ![1024, 1]⟩
abbrev S1024 : Shape := ⟨1, ![1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩

abbrev nBuf : Space → Nat
  | .hbm => 11
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S32768x64, .f32⟩
  | .hbm, ⟨2, _⟩ => ⟨S32768, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S2048, .f32⟩
  | .local _ .vmem, ⟨5, _⟩ => ⟨S2048, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  inb_S2048_S2048_0 : ∀ a, (![0] : Fin 1 → Nat) a + S2048.size a ≤ S2048.size a
  h_S2048 : 0 < S2048.numel
  reduces_S1024x64_S1024 : S1024x64.Reduces [1] S1024
  shapeCasts_S1024_S1024x1 : S1024.ShapeCasts S1024x1
  reduces_S2048x64_S2048 : S2048x64.Reduces [1] S2048
  bitsLt_bf16_f32 : FTy.bits .bf16 < FTy.bits .f32
  shapeCasts_S2048_S1x2048 : S2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reducesTo_S32768_S_d0 : S32768.ReducesTo [0] S_
  h_S_ : 0 < S_.numel
  shapeCasts_S8192x1_S8192 : S8192x1.ShapeCasts S8192
  bcast_S_S8192 : S_.BroadcastsInDim S8192 (![] : Fin 0 → Fin S8192.rank)
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S32768x64.size a
  hwx0_1 : ∀ i : grid0.Coords, EltTy.bits .f32 = 32 ∨ (Rect.block (s := S32768x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S32768.size a
  hwx0_2 : ∀ i : grid0.Coords, EltTy.bits .f32 = 32 ∨ (Rect.block (s := S32768) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S32768x64 : Shape := ⟨2, ![32768, 64]⟩
abbrev S32768 : Shape := ⟨1, ![32768]⟩
abbrev S_ : Shape := ⟨0, ![]⟩
abbrev S8192 : Shape := ⟨1, ![8192]⟩
abbrev S8192x1 : Shape := ⟨2, ![8192, 1]⟩
abbrev S1x32768 : Shape := ⟨2, ![1, 32768]⟩
abbrev S8192x32768 : Shape := ⟨2, ![8192, 32768]⟩

abbrev nBuf : Space → Nat
  | .hbm => 30
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S32768x64, .f32⟩
  | .hbm, ⟨2, _⟩ => ⟨S32768, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S1x32768, .f32⟩
  | .hbm, ⟨11, _⟩ => ⟨S8192x32768, .f32⟩
  | .hbm, ⟨12, _⟩ => ⟨S8192x32768, .f32⟩
  | .hbm, ⟨13, _⟩ => ⟨S8192x32768, .f32⟩
  | .hbm, ⟨14, _⟩ => ⟨S8192x32768, .f32⟩
  | .hbm, ⟨15, _⟩ => ⟨S_, .f32⟩
  | .hbm, ⟨16, _⟩ => ⟨S8192x32768, .f32⟩
  | .hbm, ⟨17, _⟩ => ⟨S8192x32768, .f32⟩
  | .hbm, ⟨18, _⟩ => ⟨S8192x32768, .f32⟩
  | .hbm, ⟨19, _⟩ => ⟨S1x32768, .f32⟩
  | .hbm, ⟨20, _⟩ => ⟨S8192x32768, .f32⟩
  | .hbm, ⟨21, _⟩ => ⟨S8192x32768, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  reducesTo_S32768x64_S32768_d1 : S32768x64.ReducesTo [1] S32768
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  bcast_S_S8192x32768 : S_.BroadcastsInDim S8192x32768 (![] : Fin 0 → Fin S8192x32768.rank)
  reducesTo_S8192x32768_S8192_d1 : S8192x32768.ReducesTo [1] S8192
  reducesTo_S32768_S_d0 : S32768.ReducesTo [0] S_
  bcast_S_S8192 : S_.BroadcastsInDim S8192 (![] : Fin 0 → Fin S8192.rank)
  dot_S8192x64_S32768x64_S8192x32768_1_1_0_0_n_n_wf : DotDims.WF S8192x64 S32768x64 S8192x32768 [1] [1] [0] [0] [] []

variable [Facts₀]

def dot_S8192x64_S32768x64_S8192x32768_1_1_0_0_n_n : DotDims S8192x64 S32768x64 S8192x32768 where
  lhsContracting := [1]
  rhsContracting := [1]
  lhsNonContracting := [0]
  rhsNonContracting := [0]
  lhsBatch := []
  rhsBatch := []
  wf := dot_S8192x64_S32768x64_S8192x32768_1_1_0_0_n_n_wf

class Facts : Prop extends Facts₀ where

variable [Facts]
-- ==== Proof.BodyB.Shared.lean ====
/-
  What the three runs of the kernel body share.

  The grid is 8 × 16 points in row-major order: point `t` has second coordinate `t mod 16`, the position of the
  tile of target rows. The body branches three times on that coordinate: it resets the running minimum at the
  first tile (`t mod 16 = 0`), joins the tile's minimum into it at every later tile (`t mod 16 ≠ 0`), and copies
  it to the output block at the last tile (`t mod 16 = 15`). Here: the three conditions as the body computes them,
  each decided over the grid in closed form; where the output window is idle (every point but a row's last) and
  that the block is not written back there; the staging memrefs the body is called with, the scratch memref,
  and the region's invariant with the scratch as an owned memref.
-/
import proofs.«164561_j48215302865480_1_alg».proof.Proof.Gen.Kernel.Frame
import proofs.«164561_j48215302865480_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first branch: the tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch: the tile coordinate is positive. -/
abbrev cond0_1 (i : grid0.Coords) : Prop := (Scalar.cmpi .ne (Scalar.extui (Scalar.cmpi .sgt (BitVec.ofNat 32 (i 1).val) 0#32)) 0#32) = 1#1
theorem hcond0_1 : ∀ t : Fin cfg0.N, cond0_1 (grid0.coords t) ↔ ¬ t.val % 16 = 0 :=
  (by decide +kernel : ∀ t : Fin grid0.N, cond0_1 (grid0.coords t) ↔ ¬ t.val % 16 = 0)

/-- The third branch: the tile coordinate is the last, 15. -/
abbrev cond0_2 (i : grid0.Coords) : Prop := k0_cond3 i = 1#1
theorem hcond0_2 : ∀ t : Fin cfg0.N, cond0_2 (grid0.coords t) ↔ t.val % 16 = 15 :=
  (by decide +kernel : ∀ t : Fin grid0.N, cond0_2 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row's last tile the body stores nothing into the output block, -/
theorem idleAt0_3 : ∀ t : Fin cfg0.N, ¬ t.val % 16 = 15 → cfg0.idle 3 (grid0.coords t) = true := by decide +kernel
/-- and the block is not written back there. -/
theorem noFlush0_3 : ∀ t : Fin cfg0.N, ¬ t.val % 16 = 15 → (cfg0.win 3).flush t = false := by decide +kernel
/-- At a row's last tile the body stores the output block. -/
theorem liveAt0_3 : ∀ t : Fin cfg0.N, t.val % 16 = 15 → cfg0.idle 3 (grid0.coords t) = false := by decide +kernel

/-! ## The memrefs the body is called with -/

abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The scratch that carries the running minimum. -/
abbrev scM0_0 : Memref sig .tc .vmem S1024x1 .f32 := Memref.whole cc0_scratch0
/-- A view through which the output block's contents are stated (the choice of staging buffer does not matter). -/
abbrev VO0_3 : View sig .tc .vmem S1024x1 .f32 := (Memref.whole cc0_stg3_0 : Memref sig .tc .vmem S1024x1 .f32).view
/-- The scratch as a view. -/
abbrev VS0_0 : View sig .tc .vmem S1024x1 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.BodyB.RunA.lean ====
/-
  The kernel body at a row's FIRST tile (tile coordinate 0): it loads the three input blocks, takes the first
  branch only, and stores the tile's row minima into the scratch, whatever the scratch held. The pieces the
  scratch ends with are found by running the body.
-/
import proofs.«164561_j48215302865480_1_alg».proof.Proof.BodyB.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a first tile: from the input blocks at `x0`, `x1`, `x2` and the scratch at anything, to the same
    blocks and the scratch with the run's pieces written. -/
noncomputable def kernelRun0_A (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : ¬cond0_2 i)
    (x0 : Vec F S1024x64 .f32) (x1 : Vec F S2048x64 .f32) (x2 : Vec F S2048 .f32) :
    { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0)) -∗ K ⟨⟩))
          ⊢ wp frame (wpE (defs₀ (F := F)) Variants.none c none) E (cc0__sdot_min_kernel i arg2 harg2 arg3 harg3 arg4 harg4 arg5 harg5 arg6 harg6) K } := by
  refine ⟨?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.BodyB.RunB.lean ====
/-
  The kernel body at a MIDDLE tile (tile coordinate strictly between 0 and 15): it loads the three input blocks,
  takes the second branch only, reads the running minimum the tile before left in the scratch, and stores its
  minimum with the tile's row minima back into the scratch.
-/
import proofs.«164561_j48215302865480_1_alg».proof.Proof.BodyB.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a middle tile: from the input blocks at `x0`, `x1`, `x2` and the scratch at `xs`, to the same
    blocks and the scratch with the run's pieces written. -/
noncomputable def kernelRun0_B (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1024x64 .f32) (x1 : Vec F S2048x64 .f32) (x2 : Vec F S2048 .f32) (xs : Vec F S1024x1 .f32) :
    { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0)) -∗ K ⟨⟩))
          ⊢ wp frame (wpE (defs₀ (F := F)) Variants.none c none) E (cc0__sdot_min_kernel i arg2 harg2 arg3 harg3 arg4 harg4 arg5 harg5 arg6 harg6) K } := by
  refine ⟨?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.BodyB.RunC.lean ====
/-
  The kernel body at a row's LAST tile (tile coordinate 15): as at a middle tile it joins the tile's row minima
  into the running minimum in the scratch; then it takes the third branch too, reads the scratch back and stores
  it into the output block.
-/
import proofs.«164561_j48215302865480_1_alg».proof.Proof.BodyB.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run at a last tile: from the input blocks at `x0`, `x1`, `x2`, the output block at anything and the
    scratch at `xs`, to the same input blocks, and the output block and the scratch with the run's pieces written. -/
noncomputable def kernelRun0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i)
    (x0 : Vec F S1024x64 .f32) (x1 : Vec F S2048x64 .f32) (x2 : Vec F S2048 .f32) (xs : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sdot_min_kernel i arg2 harg2 arg3 harg3 arg4 harg4 arg5 harg5 arg6 harg6) K } := by
  refine ⟨?_, ?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Body

end
-- ==== Proof.BodyB.Frame.lean ====
/-
  The frame of the kernel's program: it runs to the end, faults nowhere and leaves its arguments unchanged; and
  what its output array holds at the end, named point by point.

  The scratch carries the running minimum across the sixteen tiles of a row of blocks. After point `n` it holds
  `scAt n`: at a row's first tile what that tile's run leaves whatever was there, at every later tile what the
  run leaves over what the point before left. The output block is stored at a row's last tile only (`outAt`);
  at the other points the window is idle and its buffer is handed back as it was found. The region's invariant
  before point `n + 1` is the scratch at `scAt n` (before the first point: at anything), and after the last point
  the scratch's contents are forgotten again. The body obligation is the run of the point's case, chosen by the
  point's position modulo 16.
-/
import proofs.«164561_j48215302865480_1_alg».proof.Proof.BodyB.RunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its pieces read back -/

/-- The one store of a first tile covers the scratch. -/
theorem scover0_A (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : ¬cond0_2 i) (x0 : Vec F S1024x64 .f32) (x1 : Vec F S2048x64 .f32) (x2 : Vec F S2048 .f32) (y : S1024x1.Idx) :
    ∃ pc ∈ (kernelRun0_A c i arg2 harg2 arg3 harg3 arg4 harg4 arg5 harg5 arg6 harg6 hc0 hc1 hc2 x0 x1 x2).1, y ∈ pc.1.set :=
  View.cover_of_tiledL (kernelRun0_A c i arg2 harg2 arg3 harg3 arg4 harg4 arg5 harg5 arg6 harg6 hc0 hc1 hc2 x0 x1 x2).1 S1024x1.size (by sl_kernel_rfl) y

/-- What a first tile leaves in the scratch. -/
def sout0_A (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : ¬cond0_2 i) (x0 : Vec F S1024x64 .f32) (x1 : Vec F S2048x64 .f32) (x2 : Vec F S2048 .f32) : Vec F S1024x1 .f32 :=
  VS0_0.read (Elt F) (VS0_0.writes (Elt F) VS0_0.junk (kernelRun0_A c i arg2 harg2 arg3 harg3 arg4 harg4 arg5 harg5 arg6 harg6 hc0 hc1 hc2 x0 x1 x2).1)

/-- The one store of a middle tile covers the scratch. -/
theorem scover0_B (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (x0 : Vec F S1024x64 .f32) (x1 : Vec F S2048x64 .f32) (x2 : Vec F S2048 .f32) (xs : Vec F S1024x1 .f32) (y : S1024x1.Idx) :
    ∃ pc ∈ (kernelRun0_B c i arg2 harg2 arg3 harg3 arg4 harg4 arg5 harg5 arg6 harg6 hc0 hc1 hc2 x0 x1 x2 xs).1, y ∈ pc.1.set :=
  View.cover_of_tiledL (kernelRun0_B c i arg2 harg2 arg3 harg3 arg4 harg4 arg5 harg5 arg6 harg6 hc0 hc1 hc2 x0 x1 x2 xs).1 S1024x1.size (by sl_kernel_rfl) y

/-- What a middle tile leaves in the scratch, over `xs`. -/
def sout0_B (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (x0 : Vec F S1024x64 .f32) (x1 : Vec F S2048x64 .f32) (x2 : Vec F S2048 .f32) (xs : Vec F S1024x1 .f32) : Vec F S1024x1 .f32 :=
  VS0_0.read (Elt F) (VS0_0.writes (Elt F) VS0_0.junk (kernelRun0_B c i arg2 harg2 arg3 harg3 arg4 harg4 arg5 harg5 arg6 harg6 hc0 hc1 hc2 x0 x1 x2 xs).1)

/-- The store of a last tile into the output block covers it. -/
theorem cover0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) (y : S1024x1.Idx) :
    ∃ pc ∈ (kernelRun0_C c i arg2 harg2 arg3 harg3 arg4 harg4 arg5 harg5 arg6 harg6 hc0 hc1 hc2 x0 x1 x2 xs).1, y ∈ pc.1.set :=
  View.cover_of_tiledL (kernelRun0_C c i arg2 harg2 arg3 harg3 arg4 harg4 arg5 harg5 arg6 harg6 hc0 hc1 hc2 x0 x1 x2 xs).1 S1024x1.size (by sl_kernel_rfl) y

/-- What a last tile leaves in the output block. -/
def out0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) : Vec F S1024x1 .f32 :=
  VO0_3.read (Elt F) (VO0_3.writes (Elt F) VO0_3.junk (kernelRun0_C c i arg2 harg2 arg3 harg3 arg4 harg4 arg5 harg5 arg6 harg6 hc0 hc1 hc2 x0 x1 x2 xs).1)

/-- The store of a last tile into the scratch covers it. -/
theorem scover0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) (y : S1024x1.Idx) :
    ∃ pc ∈ (kernelRun0_C c i arg2 harg2 arg3 harg3 arg4 harg4 arg5 harg5 arg6 harg6 hc0 hc1 hc2 x0 x1 x2 xs).2.1, y ∈ pc.1.set :=
  View.cover_of_tiledL (kernelRun0_C c i arg2 harg2 arg3 harg3 arg4 harg4 arg5 harg5 arg6 harg6 hc0 hc1 hc2 x0 x1 x2 xs).2.1 S1024x1.size (by sl_kernel_rfl) y

/-- What a last tile leaves in the scratch, over `xs`. -/
def sout0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) : Vec F S1024x1 .f32 :=
  VS0_0.read (Elt F) (VS0_0.writes (Elt F) VS0_0.junk (kernelRun0_C c i arg2 harg2 arg3 harg3 arg4 harg4 arg5 harg5 arg6 harg6 hc0 hc1 hc2 x0 x1 x2 xs).2.1)

/-! ## The three cases over the grid -/

theorem caseA (t : Fin cfg0.N) (h : t.val % 16 = 0) :
    cond0_0 (grid0.coords t) ∧ ¬cond0_1 (grid0.coords t) ∧ ¬cond0_2 (grid0.coords t) :=
  ⟨(hcond0_0 t).mpr h, fun h1 => (hcond0_1 t).mp h1 h, fun h2 => by have := (hcond0_2 t).mp h2; omega⟩

theorem caseB (t : Fin cfg0.N) (h0 : ¬ t.val % 16 = 0) (h2 : ¬ t.val % 16 = 15) :
    ¬cond0_0 (grid0.coords t) ∧ cond0_1 (grid0.coords t) ∧ ¬cond0_2 (grid0.coords t) :=
  ⟨fun h => h0 ((hcond0_0 t).mp h), (hcond0_1 t).mpr h0, fun h => h2 ((hcond0_2 t).mp h)⟩

theorem caseC (t : Fin cfg0.N) (h2 : t.val % 16 = 15) :
    ¬cond0_0 (grid0.coords t) ∧ cond0_1 (grid0.coords t) ∧ cond0_2 (grid0.coords t) :=
  ⟨fun h => by have := (hcond0_0 t).mp h; omega, (hcond0_1 t).mpr (by omega), (hcond0_2 t).mpr h2⟩

/-! ## What the scratch and the output block hold after each point -/

/-- A first tile's scratch at point `t`, from the point's input blocks. -/
def scA (c : Dev nD) (t : Fin cfg0.N) (h : t.val % 16 = 0) : Vec F S1024x1 .f32 :=
  sout0_A c (grid0.coords t) (ms0_0 t) (hs0_0 t) (ms0_1 t) (hs0_1 t) (ms0_2 t) (hs0_2 t) (ms0_3 t) (hs0_3 t) scM0_0 (Memref.isWhole_whole _) (caseA t h).1 (caseA t h).2.1 (caseA t h).2.2 (iblk m c 0 t) (iblk m c 1 t) (iblk m c 2 t)

/-- A middle tile's scratch at point `t`, over what the scratch held. -/
def scB (c : Dev nD) (t : Fin cfg0.N) (h0 : ¬ t.val % 16 = 0) (h2 : ¬ t.val % 16 = 15) (xs : Vec F S1024x1 .f32) : Vec F S1024x1 .f32 :=
  sout0_B c (grid0.coords t) (ms0_0 t) (hs0_0 t) (ms0_1 t) (hs0_1 t) (ms0_2 t) (hs0_2 t) (ms0_3 t) (hs0_3 t) scM0_0 (Memref.isWhole_whole _) (caseB t h0 h2).1 (caseB t h0 h2).2.1 (caseB t h0 h2).2.2 (iblk m c 0 t) (iblk m c 1 t) (iblk m c 2 t) xs

/-- A last tile's scratch at point `t`, over what the scratch held. -/
def scC (c : Dev nD) (t : Fin cfg0.N) (h2 : t.val % 16 = 15) (xs : Vec F S1024x1 .f32) : Vec F S1024x1 .f32 :=
  sout0_C c (grid0.coords t) (ms0_0 t) (hs0_0 t) (ms0_1 t) (hs0_1 t) (ms0_2 t) (hs0_2 t) (ms0_3 t) (hs0_3 t) scM0_0 (Memref.isWhole_whole _) (caseC t h2).1 (caseC t h2).2.1 (caseC t h2).2.2 (iblk m c 0 t) (iblk m c 1 t) (iblk m c 2 t) xs

/-- A last tile's output block at point `t`. -/
def outC (c : Dev nD) (t : Fin cfg0.N) (h2 : t.val % 16 = 15) (xs : Vec F S1024x1 .f32) : Vec F S1024x1 .f32 :=
  out0_C c (grid0.coords t) (ms0_0 t) (hs0_0 t) (ms0_1 t) (hs0_1 t) (ms0_2 t) (hs0_2 t) (ms0_3 t) (hs0_3 t) scM0_0 (Memref.isWhole_whole _) (caseC t h2).1 (caseC t h2).2.1 (caseC t h2).2.2 (iblk m c 0 t) (iblk m c 1 t) (iblk m c 2 t) xs

/-- THE RUNNING MINIMUM: what the scratch holds after the body at position `n`. -/
def scAt (c : Dev nD) : (n : ℕ) → n < cfg0.N → Vec F S1024x1 .f32
  | 0, hn => scA m c ⟨0, hn⟩ (Nat.zero_mod _)
  | n + 1, hn =>
    if h0 : (n + 1) % 16 = 0 then scA m c ⟨n + 1, hn⟩ h0
    else if h2 : (n + 1) % 16 = 15 then scC m c ⟨n + 1, hn⟩ h2 (scAt c n (Nat.lt_of_succ_lt hn))
    else scB m c ⟨n + 1, hn⟩ h0 h2 (scAt c n (Nat.lt_of_succ_lt hn))

theorem scAt_A (c : Dev nD) (t : Fin cfg0.N) (h0 : t.val % 16 = 0) : scAt m c t.val t.isLt = scA m c t h0 := by
  obtain ⟨n, hn⟩ := t
  cases n with
  | zero => rfl
  | succ n => exact dif_pos h0

theorem scAt_B (c : Dev nD) (t : Fin cfg0.N) (h0 : ¬ t.val % 16 = 0) (h2 : ¬ t.val % 16 = 15) :
    scAt m c t.val t.isLt = scB m c t h0 h2 (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h2).trans rfl)

theorem scAt_C (c : Dev nD) (t : Fin cfg0.N) (h2 : t.val % 16 = 15) :
    scAt m c t.val t.isLt = scC m c t h2 (scAt m c (t.val - 1) (Nat.lt_of_le_of_lt (Nat.sub_le _ _) t.isLt)) := by
  obtain ⟨n, hn⟩ := t
  cases n with
  | zero => exact absurd (show 0 % 16 = 15 from h2) (by decide)
  | succ n => exact (dif_neg (show ¬ (n + 1) % 16 = 0 from fun h => by have : (n + 1) % 16 = 15 := h2; omega)).trans ((dif_pos h2).trans rfl)

/-- A placeholder for the output block where the body stores nothing into it: nothing consults it. -/
def outJunk : Vec F S1024x1 .f32 := VO0_3.read (Elt F) VO0_3.junk

/-- What the output block's staging buffer holds after the body at point `t`: stored at a row's last tile only. -/
def outAt (c : Dev nD) (t : Fin cfg0.N) : Vec F S1024x1 .f32 :=
  if h2 : t.val % 16 = 15 then outC m c t h2 (scAt m c (t.val - 1) (Nat.lt_of_le_of_lt (Nat.sub_le _ _) t.isLt)) else outJunk

theorem outAt_C (c : Dev nD) (t : Fin cfg0.N) (h2 : t.val % 16 = 15) : outAt m c t = outC m c t h2 (scAt m c (t.val - 1) (Nat.lt_of_le_of_lt (Nat.sub_le _ _) t.isLt)) := dif_pos h2

/-- The region's invariant before position `n`: before the first point the scratch at anything; afterwards the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scAt m c (n - 1) (by omega))) ∗ (∃ r, prngReg c r)) := by
  cases n with
  | zero => exact absurd rfl hz
  | succ n => rfl

/-! ## The pipeline's proof data -/

/-- The proof data on core `c`: the arrays as the region finds them; after the body at point `t` each input's buffer at
    its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point's position modulo 16 says which case
    it is in; the invariant hands the body the scratch at what the point before left (at anything before the
    first point) and takes it back at this point's contents; at a row's last tile the output block is stored
    whole, elsewhere its buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 16 = 0
  · have h2 : ¬ t.val % 16 = 15 := by omega
    rw [Dat.leavesExact_idle (dats m 0 c) 3 t (idleAt0_3 t h2) (noFlush0_3 t h2)]
    rw [scAt_A m c t h0]
    unfold scA sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, H3⟩
      iapply ((kernelRun0_A c (grid0.coords t) _ _ _ _ _ _ _ _ _ _ (caseA t h0).1 (caseA t h0).2.1 (caseA t h0).2.2 (iblk m c 0 t) (iblk m c 1 t) (iblk m c 2 t)).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _)
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨HS0, Hg⟩, Ho, ⟨%d0, H0⟩, ⟨%d1, H1⟩, ⟨%d2, H2⟩, H3⟩
      iapply ((kernelRun0_A c (grid0.coords t) _ _ _ _ _ _ _ _ _ _ (caseA t h0).1 (caseA t h0).2.1 (caseA t h0).2.2 (iblk m c 0 t) (iblk m c 1 t) (iblk m c 2 t)).2 Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _)
        iexact Hg
      isplitl [Ho]; · iexact Ho
      isplitl [H0]; · iexact H0
      isplitl [H1]; · iexact H1
      isplitl [H2]; · iexact H2
      iexact H3
  · have hz : t.val ≠ 0 := fun h => h0 (by rw [h])
    by_cases h2 : t.val % 16 = 15
    · rw [show (dats m 0 c).leavesExact 3 t = owns (c : Thread nD τ) (ms0_3 t) fullShare ((dats m 0 c).after 3 t) from by
        unfold Dat.leavesExact; rw [liveAt0_3 t h2], after0_3]
      rw [scAt_C m c t h2, outAt_C m c t h2]
      unfold scC outC sout0_C out0_C; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (caseC t h2).1 (caseC t h2).2.1 (caseC t h2).2.2 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _ _)
    · rw [Dat.leavesExact_idle (dats m 0 c) 3 t (idleAt0_3 t h2) (noFlush0_3 t h2)]
      rw [scAt_B m c t h0 h2]
      unfold scB sout0_B; (try dsimp only)
      rw [PhiS_castSucc m c t, PhiS_pos m c _ _ hz]
      iintro ⟨⟨HS0, Hg⟩, Ho, ⟨%d0, H0⟩, ⟨%d1, H1⟩, ⟨%d2, H2⟩, H3⟩
      iapply ((kernelRun0_B c (grid0.coords t) _ _ _ _ _ _ _ _ _ _ (caseB t h0 h2).1 (caseB t h0 h2).2.1 (caseB t h0 h2).2.2 (iblk m c 0 t) (iblk m c 1 t) (iblk m c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _)
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, and every final state has every array of the pipeline at
    what the proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any instance: the program runs, and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyI.Shared.lean ====
/-
  What the three runs of the kernel body share.

  The grid is 8 × 16 points in row-major order: point `t` has second coordinate `t mod 16`, the position of the
  tile of target rows. The body branches three times on that coordinate: it resets the running minimum at the
  first tile (`t mod 16 = 0`), joins the tile's minimum into it at every later tile (`t mod 16 ≠ 0`), and copies
  it to the output block at the last tile (`t mod 16 = 15`). Here: the three conditions as the body computes them,
  each decided over the grid in closed form; where the output window is idle (every point but a row's last) and
  that the block is not written back there; the staging memrefs the body is called with, the scratch memref,
  and the region's invariant with the scratch as an owned memref.
-/
import proofs.«164561_j48215302865480_1_alg».proof.Proof.Gen.KernelIdeal.Frame
import proofs.«164561_j48215302865480_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The first branch: the tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch: the tile coordinate is positive. -/
abbrev cond0_1 (i : grid0.Coords) : Prop := (Scalar.cmpi .ne (Scalar.extui (Scalar.cmpi .sgt (BitVec.ofNat 32 (i 1).val) 0#32)) 0#32) = 1#1
theorem hcond0_1 : ∀ t : Fin cfg0.N, cond0_1 (grid0.coords t) ↔ ¬ t.val % 16 = 0 :=
  (by decide +kernel : ∀ t : Fin grid0.N, cond0_1 (grid0.coords t) ↔ ¬ t.val % 16 = 0)

/-- The third branch: the tile coordinate is the last, 15. -/
abbrev cond0_2 (i : grid0.Coords) : Prop := k0_cond3 i = 1#1
theorem hcond0_2 : ∀ t : Fin cfg0.N, cond0_2 (grid0.coords t) ↔ t.val % 16 = 15 :=
  (by decide +kernel : ∀ t : Fin grid0.N, cond0_2 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row's last tile the body stores nothing into the output block, -/
theorem idleAt0_3 : ∀ t : Fin cfg0.N, ¬ t.val % 16 = 15 → cfg0.idle 3 (grid0.coords t) = true := by decide +kernel
/-- and the block is not written back there. -/
theorem noFlush0_3 : ∀ t : Fin cfg0.N, ¬ t.val % 16 = 15 → (cfg0.win 3).flush t = false := by decide +kernel
/-- At a row's last tile the body stores the output block. -/
theorem liveAt0_3 : ∀ t : Fin cfg0.N, t.val % 16 = 15 → cfg0.idle 3 (grid0.coords t) = false := by decide +kernel

/-! ## The memrefs the body is called with -/

abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The scratch that carries the running minimum. -/
abbrev scM0_0 : Memref sig .tc .vmem S1024x1 .f32 := Memref.whole cc0_scratch0
/-- A view through which the output block's contents are stated (the choice of staging buffer does not matter). -/
abbrev VO0_3 : View sig .tc .vmem S1024x1 .f32 := (Memref.whole cc0_stg3_0 : Memref sig .tc .vmem S1024x1 .f32).view
/-- The scratch as a view. -/
abbrev VS0_0 : View sig .tc .vmem S1024x1 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.BodyI.RunA.lean ====
/-
  The kernel body at a row's FIRST tile (tile coordinate 0): it loads the three input blocks, takes the first
  branch only, and stores the tile's row minima into the scratch, whatever the scratch held. The pieces the
  scratch ends with are found by running the body.
-/
import proofs.«164561_j48215302865480_1_alg».proof.Proof.BodyI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a first tile: from the input blocks at `x0`, `x1`, `x2` and the scratch at anything, to the same
    blocks and the scratch with the run's pieces written. -/
noncomputable def kernelRun0_A (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : ¬cond0_2 i)
    (x0 : Vec F S1024x64 .f32) (x1 : Vec F S2048x64 .f32) (x2 : Vec F S2048 .f32) :
    { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0)) -∗ K ⟨⟩))
          ⊢ wp frame (wpE (defs₀ (F := F)) Variants.none c none) E (cc0__sdot_min_kernel i arg2 harg2 arg3 harg3 arg4 harg4 arg5 harg5 arg6 harg6) K } := by
  refine ⟨?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.BodyI.RunB.lean ====
/-
  The kernel body at a MIDDLE tile (tile coordinate strictly between 0 and 15): it loads the three input blocks,
  takes the second branch only, reads the running minimum the tile before left in the scratch, and stores its
  minimum with the tile's row minima back into the scratch.
-/
import proofs.«164561_j48215302865480_1_alg».proof.Proof.BodyI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a middle tile: from the input blocks at `x0`, `x1`, `x2` and the scratch at `xs`, to the same
    blocks and the scratch with the run's pieces written. -/
noncomputable def kernelRun0_B (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1024x64 .f32) (x1 : Vec F S2048x64 .f32) (x2 : Vec F S2048 .f32) (xs : Vec F S1024x1 .f32) :
    { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f LS0)) -∗ K ⟨⟩))
          ⊢ wp frame (wpE (defs₀ (F := F)) Variants.none c none) E (cc0__sdot_min_kernel i arg2 harg2 arg3 harg3 arg4 harg4 arg5 harg5 arg6 harg6) K } := by
  refine ⟨?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.BodyI.RunC.lean ====
/-
  The kernel body at a row's LAST tile (tile coordinate 15): as at a middle tile it joins the tile's row minima
  into the running minimum in the scratch; then it takes the third branch too, reads the scratch back and stores
  it into the output block.
-/
import proofs.«164561_j48215302865480_1_alg».proof.Proof.BodyI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a last tile: from the input blocks at `x0`, `x1`, `x2`, the output block at anything and the
    scratch at `xs`, to the same input blocks, and the output block and the scratch with the run's pieces written. -/
noncomputable def kernelRun0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i)
    (x0 : Vec F S1024x64 .f32) (x1 : Vec F S2048x64 .f32) (x2 : Vec F S2048 .f32) (xs : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sdot_min_kernel i arg2 harg2 arg3 harg3 arg4 harg4 arg5 harg5 arg6 harg6) K } := by
  refine ⟨?_, ?_, fun E K => ?run⟩
  case run =>
    simp only [cc0__sdot_min_kernel_eq_skeleton]; unfold cc0__sdot_min_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Body

end
-- ==== Proof.BodyI.Frame.lean ====
/-
  The frame of the kernel's program: it runs to the end, faults nowhere and leaves its arguments unchanged; and
  what its output array holds at the end, named point by point.

  The scratch carries the running minimum across the sixteen tiles of a row of blocks. After point `n` it holds
  `scAt n`: at a row's first tile what that tile's run leaves whatever was there, at every later tile what the
  run leaves over what the point before left. The output block is stored at a row's last tile only (`outAt`);
  at the other points the window is idle and its buffer is handed back as it was found. The region's invariant
  before point `n + 1` is the scratch at `scAt n` (before the first point: at anything), and after the last point
  the scratch's contents are forgotten again. The body obligation is the run of the point's case, chosen by the
  point's position modulo 16.
-/
import proofs.«164561_j48215302865480_1_alg».proof.Proof.BodyI.RunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: its pieces read back -/

/-- The one store of a first tile covers the scratch. -/
theorem scover0_A (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : ¬cond0_2 i) (x0 : Vec F S1024x64 .f32) (x1 : Vec F S2048x64 .f32) (x2 : Vec F S2048 .f32) (y : S1024x1.Idx) :
    ∃ pc ∈ (kernelRun0_A c i arg2 harg2 arg3 harg3 arg4 harg4 arg5 harg5 arg6 harg6 hc0 hc1 hc2 x0 x1 x2).1, y ∈ pc.1.set :=
  View.cover_of_tiledL (kernelRun0_A c i arg2 harg2 arg3 harg3 arg4 harg4 arg5 harg5 arg6 harg6 hc0 hc1 hc2 x0 x1 x2).1 S1024x1.size (by sl_kernel_rfl) y

/-- What a first tile leaves in the scratch. -/
def sout0_A (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : ¬cond0_2 i) (x0 : Vec F S1024x64 .f32) (x1 : Vec F S2048x64 .f32) (x2 : Vec F S2048 .f32) : Vec F S1024x1 .f32 :=
  VS0_0.read (Elt F) (VS0_0.writes (Elt F) VS0_0.junk (kernelRun0_A c i arg2 harg2 arg3 harg3 arg4 harg4 arg5 harg5 arg6 harg6 hc0 hc1 hc2 x0 x1 x2).1)

/-- The one store of a middle tile covers the scratch. -/
theorem scover0_B (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (x0 : Vec F S1024x64 .f32) (x1 : Vec F S2048x64 .f32) (x2 : Vec F S2048 .f32) (xs : Vec F S1024x1 .f32) (y : S1024x1.Idx) :
    ∃ pc ∈ (kernelRun0_B c i arg2 harg2 arg3 harg3 arg4 harg4 arg5 harg5 arg6 harg6 hc0 hc1 hc2 x0 x1 x2 xs).1, y ∈ pc.1.set :=
  View.cover_of_tiledL (kernelRun0_B c i arg2 harg2 arg3 harg3 arg4 harg4 arg5 harg5 arg6 harg6 hc0 hc1 hc2 x0 x1 x2 xs).1 S1024x1.size (by sl_kernel_rfl) y

/-- What a middle tile leaves in the scratch, over `xs`. -/
def sout0_B (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (x0 : Vec F S1024x64 .f32) (x1 : Vec F S2048x64 .f32) (x2 : Vec F S2048 .f32) (xs : Vec F S1024x1 .f32) : Vec F S1024x1 .f32 :=
  VS0_0.read (Elt F) (VS0_0.writes (Elt F) VS0_0.junk (kernelRun0_B c i arg2 harg2 arg3 harg3 arg4 harg4 arg5 harg5 arg6 harg6 hc0 hc1 hc2 x0 x1 x2 xs).1)

/-- The store of a last tile into the output block covers it. -/
theorem cover0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) (y : S1024x1.Idx) :
    ∃ pc ∈ (kernelRun0_C c i arg2 harg2 arg3 harg3 arg4 harg4 arg5 harg5 arg6 harg6 hc0 hc1 hc2 x0 x1 x2 xs).1, y ∈ pc.1.set :=
  View.cover_of_tiledL (kernelRun0_C c i arg2 harg2 arg3 harg3 arg4 harg4 arg5 harg5 arg6 harg6 hc0 hc1 hc2 x0 x1 x2 xs).1 S1024x1.size (by sl_kernel_rfl) y

/-- What a last tile leaves in the output block. -/
def out0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) : Vec F S1024x1 .f32 :=
  VO0_3.read (Elt F) (VO0_3.writes (Elt F) VO0_3.junk (kernelRun0_C c i arg2 harg2 arg3 harg3 arg4 harg4 arg5 harg5 arg6 harg6 hc0 hc1 hc2 x0 x1 x2 xs).1)

/-- The store of a last tile into the scratch covers it. -/
theorem scover0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) (y : S1024x1.Idx) :
    ∃ pc ∈ (kernelRun0_C c i arg2 harg2 arg3 harg3 arg4 harg4 arg5 harg5 arg6 harg6 hc0 hc1 hc2 x0 x1 x2 xs).2.1, y ∈ pc.1.set :=
  View.cover_of_tiledL (kernelRun0_C c i arg2 harg2 arg3 harg3 arg4 harg4 arg5 harg5 arg6 harg6 hc0 hc1 hc2 x0 x1 x2 xs).2.1 S1024x1.size (by sl_kernel_rfl) y

/-- What a last tile leaves in the scratch, over `xs`. -/
def sout0_C (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) : Vec F S1024x1 .f32 :=
  VS0_0.read (Elt F) (VS0_0.writes (Elt F) VS0_0.junk (kernelRun0_C c i arg2 harg2 arg3 harg3 arg4 harg4 arg5 harg5 arg6 harg6 hc0 hc1 hc2 x0 x1 x2 xs).2.1)

/-! ## The three cases over the grid -/

theorem caseA (t : Fin cfg0.N) (h : t.val % 16 = 0) :
    cond0_0 (grid0.coords t) ∧ ¬cond0_1 (grid0.coords t) ∧ ¬cond0_2 (grid0.coords t) :=
  ⟨(hcond0_0 t).mpr h, fun h1 => (hcond0_1 t).mp h1 h, fun h2 => by have := (hcond0_2 t).mp h2; omega⟩

theorem caseB (t : Fin cfg0.N) (h0 : ¬ t.val % 16 = 0) (h2 : ¬ t.val % 16 = 15) :
    ¬cond0_0 (grid0.coords t) ∧ cond0_1 (grid0.coords t) ∧ ¬cond0_2 (grid0.coords t) :=
  ⟨fun h => h0 ((hcond0_0 t).mp h), (hcond0_1 t).mpr h0, fun h => h2 ((hcond0_2 t).mp h)⟩

theorem caseC (t : Fin cfg0.N) (h2 : t.val % 16 = 15) :
    ¬cond0_0 (grid0.coords t) ∧ cond0_1 (grid0.coords t) ∧ cond0_2 (grid0.coords t) :=
  ⟨fun h => by have := (hcond0_0 t).mp h; omega, (hcond0_1 t).mpr (by omega), (hcond0_2 t).mpr h2⟩

/-! ## What the scratch and the output block hold after each point -/

/-- A first tile's scratch at point `t`, from the point's input blocks. -/
def scA (c : Dev nD) (t : Fin cfg0.N) (h : t.val % 16 = 0) : Vec F S1024x1 .f32 :=
  sout0_A c (grid0.coords t) (ms0_0 t) (hs0_0 t) (ms0_1 t) (hs0_1 t) (ms0_2 t) (hs0_2 t) (ms0_3 t) (hs0_3 t) scM0_0 (Memref.isWhole_whole _) (caseA t h).1 (caseA t h).2.1 (caseA t h).2.2 (iblk m c 0 t) (iblk m c 1 t) (iblk m c 2 t)

/-- A middle tile's scratch at point `t`, over what the scratch held. -/
def scB (c : Dev nD) (t : Fin cfg0.N) (h0 : ¬ t.val % 16 = 0) (h2 : ¬ t.val % 16 = 15) (xs : Vec F S1024x1 .f32) : Vec F S1024x1 .f32 :=
  sout0_B c (grid0.coords t) (ms0_0 t) (hs0_0 t) (ms0_1 t) (hs0_1 t) (ms0_2 t) (hs0_2 t) (ms0_3 t) (hs0_3 t) scM0_0 (Memref.isWhole_whole _) (caseB t h0 h2).1 (caseB t h0 h2).2.1 (caseB t h0 h2).2.2 (iblk m c 0 t) (iblk m c 1 t) (iblk m c 2 t) xs

/-- A last tile's scratch at point `t`, over what the scratch held. -/
def scC (c : Dev nD) (t : Fin cfg0.N) (h2 : t.val % 16 = 15) (xs : Vec F S1024x1 .f32) : Vec F S1024x1 .f32 :=
  sout0_C c (grid0.coords t) (ms0_0 t) (hs0_0 t) (ms0_1 t) (hs0_1 t) (ms0_2 t) (hs0_2 t) (ms0_3 t) (hs0_3 t) scM0_0 (Memref.isWhole_whole _) (caseC t h2).1 (caseC t h2).2.1 (caseC t h2).2.2 (iblk m c 0 t) (iblk m c 1 t) (iblk m c 2 t) xs

/-- A last tile's output block at point `t`. -/
def outC (c : Dev nD) (t : Fin cfg0.N) (h2 : t.val % 16 = 15) (xs : Vec F S1024x1 .f32) : Vec F S1024x1 .f32 :=
  out0_C c (grid0.coords t) (ms0_0 t) (hs0_0 t) (ms0_1 t) (hs0_1 t) (ms0_2 t) (hs0_2 t) (ms0_3 t) (hs0_3 t) scM0_0 (Memref.isWhole_whole _) (caseC t h2).1 (caseC t h2).2.1 (caseC t h2).2.2 (iblk m c 0 t) (iblk m c 1 t) (iblk m c 2 t) xs

/-- THE RUNNING MINIMUM: what the scratch holds after the body at position `n`. -/
def scAt (c : Dev nD) : (n : ℕ) → n < cfg0.N → Vec F S1024x1 .f32
  | 0, hn => scA m c ⟨0, hn⟩ (Nat.zero_mod _)
  | n + 1, hn =>
    if h0 : (n + 1) % 16 = 0 then scA m c ⟨n + 1, hn⟩ h0
    else if h2 : (n + 1) % 16 = 15 then scC m c ⟨n + 1, hn⟩ h2 (scAt c n (Nat.lt_of_succ_lt hn))
    else scB m c ⟨n + 1, hn⟩ h0 h2 (scAt c n (Nat.lt_of_succ_lt hn))

theorem scAt_A (c : Dev nD) (t : Fin cfg0.N) (h0 : t.val % 16 = 0) : scAt m c t.val t.isLt = scA m c t h0 := by
  obtain ⟨n, hn⟩ := t
  cases n with
  | zero => rfl
  | succ n => exact dif_pos h0

theorem scAt_B (c : Dev nD) (t : Fin cfg0.N) (h0 : ¬ t.val % 16 = 0) (h2 : ¬ t.val % 16 = 15) :
    scAt m c t.val t.isLt = scB m c t h0 h2 (scAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h2).trans rfl)

theorem scAt_C (c : Dev nD) (t : Fin cfg0.N) (h2 : t.val % 16 = 15) :
    scAt m c t.val t.isLt = scC m c t h2 (scAt m c (t.val - 1) (Nat.lt_of_le_of_lt (Nat.sub_le _ _) t.isLt)) := by
  obtain ⟨n, hn⟩ := t
  cases n with
  | zero => exact absurd (show 0 % 16 = 15 from h2) (by decide)
  | succ n => exact (dif_neg (show ¬ (n + 1) % 16 = 0 from fun h => by have : (n + 1) % 16 = 15 := h2; omega)).trans ((dif_pos h2).trans rfl)

/-- A placeholder for the output block where the body stores nothing into it: nothing consults it. -/
def outJunk : Vec F S1024x1 .f32 := VO0_3.read (Elt F) VO0_3.junk

/-- What the output block's staging buffer holds after the body at point `t`: stored at a row's last tile only. -/
def outAt (c : Dev nD) (t : Fin cfg0.N) : Vec F S1024x1 .f32 :=
  if h2 : t.val % 16 = 15 then outC m c t h2 (scAt m c (t.val - 1) (Nat.lt_of_le_of_lt (Nat.sub_le _ _) t.isLt)) else outJunk

theorem outAt_C (c : Dev nD) (t : Fin cfg0.N) (h2 : t.val % 16 = 15) : outAt m c t = outC m c t h2 (scAt m c (t.val - 1) (Nat.lt_of_le_of_lt (Nat.sub_le _ _) t.isLt)) := dif_pos h2

/-- The region's invariant before position `n`: before the first point the scratch at anything; afterwards the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scAt m c (n - 1) (by omega))) ∗ (∃ r, prngReg c r)) := by
  cases n with
  | zero => exact absurd rfl hz
  | succ n => rfl

/-! ## The pipeline's proof data -/

/-- The proof data on core `c`: the arrays as the region finds them; after the body at point `t` each input's buffer at
    its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point's position modulo 16 says which case
    it is in; the invariant hands the body the scratch at what the point before left (at anything before the
    first point) and takes it back at this point's contents; at a row's last tile the output block is stored
    whole, elsewhere its buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 16 = 0
  · have h2 : ¬ t.val % 16 = 15 := by omega
    rw [Dat.leavesExact_idle (dats m 0 c) 3 t (idleAt0_3 t h2) (noFlush0_3 t h2)]
    rw [scAt_A m c t h0]
    unfold scA sout0_A; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, H3⟩
      iapply ((kernelRun0_A c (grid0.coords t) _ _ _ _ _ _ _ _ _ _ (caseA t h0).1 (caseA t h0).2.1 (caseA t h0).2.2 (iblk m c 0 t) (iblk m c 1 t) (iblk m c 2 t)).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _)
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨HS0, Hg⟩, Ho, ⟨%d0, H0⟩, ⟨%d1, H1⟩, ⟨%d2, H2⟩, H3⟩
      iapply ((kernelRun0_A c (grid0.coords t) _ _ _ _ _ _ _ _ _ _ (caseA t h0).1 (caseA t h0).2.1 (caseA t h0).2.2 (iblk m c 0 t) (iblk m c 1 t) (iblk m c 2 t)).2 Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _)
        iexact Hg
      isplitl [Ho]; · iexact Ho
      isplitl [H0]; · iexact H0
      isplitl [H1]; · iexact H1
      isplitl [H2]; · iexact H2
      iexact H3
  · have hz : t.val ≠ 0 := fun h => h0 (by rw [h])
    by_cases h2 : t.val % 16 = 15
    · rw [show (dats m 0 c).leavesExact 3 t = owns (c : Thread nD τ) (ms0_3 t) fullShare ((dats m 0 c).after 3 t) from by
        unfold Dat.leavesExact; rw [liveAt0_3 t h2], after0_3]
      rw [scAt_C m c t h2, outAt_C m c t h2]
      unfold scC outC sout0_C out0_C; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (caseC t h2).1 (caseC t h2).2.1 (caseC t h2).2.2 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _ _)
    · rw [Dat.leavesExact_idle (dats m 0 c) 3 t (idleAt0_3 t h2) (noFlush0_3 t h2)]
      rw [scAt_B m c t h0 h2]
      unfold scB sout0_B; (try dsimp only)
      rw [PhiS_castSucc m c t, PhiS_pos m c _ _ hz]
      iintro ⟨⟨HS0, Hg⟩, Ho, ⟨%d0, H0⟩, ⟨%d1, H1⟩, ⟨%d2, H2⟩, H3⟩
      iapply ((kernelRun0_B c (grid0.coords t) _ _ _ _ _ _ _ _ _ _ (caseB t h0 h2).1 (caseB t h0 h2).2.1 (caseB t h0 h2).2.2 (iblk m c 0 t) (iblk m c 1 t) (iblk m c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _)
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, and every final state has every array of the pipeline at
    what the proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any instance: the program runs, and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  The function both programs compute, on extended reals.

  For a matrix `x` of `R` rows and a matrix `y` of `S` rows, both with 64 columns, and a vector `p` of `S` entries,
  the cost of pairing row `r` of `x` with row `s` of `y` is
      ((|x_r|² + |y_s|²) − 2 · ⟨x_r, y_s⟩) − p_s,
  the squared distance of the two rows less the potential `p_s`; `rowMin` is its minimum over `s`, taken from +∞.
  The result adds the mean of `p` to every row's minimum (`tail`): the sum of `p` from the zero word, divided by
  the word of 32768, broadcast over the rows.
  The definitions are generic in the numbers of rows, so that a block of rows of `x` against a block of rows of `y`
  is the same function at smaller extents; `cost_block` says that a block's cost is the whole arrays' cost at the
  shifted rows.
-/
import Idealize.ShloMosaic.PureOps.Ideal
import Idealize.ShloMosaic.Lib.ValueIdx

noncomputable section

open scoped BigOperators

namespace Cert.Spec

open Idealize.ShloMosaic Idealize.ShloMosaic.ValueIdx

/-- The squared length of row `r`. -/
def sq {R : ℕ} (x : (⟨2, ![R, 64]⟩ : Shape).Idx → EReal) (r : Fin R) : EReal :=
  ∑ d : Fin 64, x (ix2 r d) * x (ix2 r d)

/-- The inner product of row `r` of `x` with row `s` of `y`. -/
def dot {R S : ℕ} (x : (⟨2, ![R, 64]⟩ : Shape).Idx → EReal) (y : (⟨2, ![S, 64]⟩ : Shape).Idx → EReal) (r : Fin R) (s : Fin S) : EReal :=
  ∑ d : Fin 64, x (ix2 r d) * y (ix2 s d)

/-- The f32 word of 2.0, left as a word: both programs carry the same one. -/
def two : EReal := Ideal.ofBits .f32 0x40000000#32

/-- The cost of pairing row `r` of `x` with row `s` of `y`. -/
def cost {R S : ℕ} (x : (⟨2, ![R, 64]⟩ : Shape).Idx → EReal) (y : (⟨2, ![S, 64]⟩ : Shape).Idx → EReal)
    (p : (⟨1, ![S]⟩ : Shape).Idx → EReal) (r : Fin R) (s : Fin S) : EReal :=
  ((sq x r + sq y s) - two * dot x y r s) - p (ix1 s)

/-- The least cost of row `r` over all rows of `y`, from +∞. -/
def rowMin {R S : ℕ} (x : (⟨2, ![R, 64]⟩ : Shape).Idx → EReal) (y : (⟨2, ![S, 64]⟩ : Shape).Idx → EReal)
    (p : (⟨1, ![S]⟩ : Shape).Idx → EReal) (r : Fin R) : EReal :=
  (Finset.univ : Finset (Fin S)).fold min ⊤ (cost x y p r)

/-- The least cost of row `r` over the rows of `y` below `a`, from +∞: the running minimum. -/
def rowMinBelow {R S : ℕ} (x : (⟨2, ![R, 64]⟩ : Shape).Idx → EReal) (y : (⟨2, ![S, 64]⟩ : Shape).Idx → EReal)
    (p : (⟨1, ![S]⟩ : Shape).Idx → EReal) (a : ℕ) (r : Fin R) : EReal :=
  (Finset.univ.filter fun s : Fin S => s.val < a).fold min ⊤ (cost x y p r)

/-- The common end of both programs: the mean of `p` (its sum from the zero word over the word of 32768) added to
    every entry of `v`. -/
def tail (hb : (⟨0, ![]⟩ : Shape).BroadcastsInDim (⟨1, ![8192]⟩ : Shape) (![] : Fin 0 → Fin (⟨1, ![8192]⟩ : Shape).rank))
    (hr : (⟨1, ![32768]⟩ : Shape).ReducesTo [0] (⟨0, ![]⟩ : Shape)) (h0 : 0 < (⟨0, ![]⟩ : Shape).numel)
    (v : FVec Ideal ⟨1, ![8192]⟩ .f32) (p : FVec Ideal ⟨1, ![32768]⟩ .f32) : FVec Ideal ⟨1, ![8192]⟩ .f32 :=
  addf v (broadcastInDim (⟨1, ![8192]⟩ : Shape) ![] hb
    (Host.divf (F := Ideal) (Host.reduceAdd (F := Ideal) p (constant (F := Ideal) (⟨0, ![]⟩ : Shape) .f32 0x00000000#32) hr h0)
      (constant (F := Ideal) (⟨0, ![]⟩ : Shape) .f32 0x47000000#32)))

/-- A block of `A` rows of `x` from row `a` on, against a block of `B` rows of `y` from row `b` on with the matching
    entries of `p`: the block's cost at `(r, s)` is the whole arrays' cost at `(a + r, b + s)`. -/
theorem cost_block {R S A B : ℕ} (x : (⟨2, ![R, 64]⟩ : Shape).Idx → EReal) (y : (⟨2, ![S, 64]⟩ : Shape).Idx → EReal)
    (p : (⟨1, ![S]⟩ : Shape).Idx → EReal)
    (xb : (⟨2, ![A, 64]⟩ : Shape).Idx → EReal) (yb : (⟨2, ![B, 64]⟩ : Shape).Idx → EReal) (pb : (⟨1, ![B]⟩ : Shape).Idx → EReal)
    (a b : ℕ) (r : Fin A) (s : Fin B) (hr : a + r.val < R) (hs : b + s.val < S)
    (hx : ∀ d : Fin 64, xb (ix2 r d) = x (ix2 ⟨a + r.val, hr⟩ d))
    (hy : ∀ d : Fin 64, yb (ix2 s d) = y (ix2 ⟨b + s.val, hs⟩ d))
    (hp : pb (ix1 s) = p (ix1 ⟨b + s.val, hs⟩)) :
    cost xb yb pb r s = cost x y p ⟨a + r.val, hr⟩ ⟨b + s.val, hs⟩ := by
  unfold cost sq dot
  rw [hp]
  simp only [hx, hy]

end Cert.Spec

end
-- ==== Proof.KDefs.lean ====
/-
  Names for the idealized kernel's arrays and blocks at their literal types, and the rows a grid point works on.

  Point `t` of the 8 × 16 grid works on the block of 1024 source rows from row `1024 · (t / 16)` and on the tile of
  2048 target rows from row `2048 · (t mod 16)`.
-/
import proofs.«164561_j48215302865480_1_alg».proof.Proof.BodyI.Frame
import proofs.«164561_j48215302865480_1_alg».proof.Proof.Spec
import Idealize.ShloMosaic.Lib.ValueIdx

set_option maxRecDepth 16384

noncomputable section

open scoped BigOperators

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- The source array as the region finds it. -/
abbrev xarr (c : Dev nD) : Vec Ideal S8192x64 .f32 := V m c main_arg0
/-- The target array. -/
abbrev yarr (c : Dev nD) : Vec Ideal S32768x64 .f32 := V m c main_arg1
/-- The potentials. -/
abbrev parr (c : Dev nD) : Vec Ideal S32768 .f32 := V m c main_arg2
/-- The source block of point `t`. -/
abbrev xblk (c : Dev nD) (t : Fin cfg0.N) : Vec Ideal S1024x64 .f32 := iblk m c 0 t
/-- The target tile of point `t`. -/
abbrev yblk (c : Dev nD) (t : Fin cfg0.N) : Vec Ideal S2048x64 .f32 := iblk m c 1 t
/-- The tile's potentials. -/
abbrev pblk (c : Dev nD) (t : Fin cfg0.N) : Vec Ideal S2048 .f32 := iblk m c 2 t

theorem tlt (t : Fin cfg0.N) : t.val < 128 := lt_of_lt_of_eq t.isLt (show cfg0.N = 128 from N_0)

/-- The source row that row `r` of point `t`'s block is. -/
def xrow (t : Fin cfg0.N) (r : Fin 1024) : Fin 8192 :=
  ⟨1024 * (t.val / 16) + r.val, by have := tlt t; have := r.isLt; omega⟩

/-- The target row that row `s` of point `t`'s tile is. -/
def yrow (t : Fin cfg0.N) (s : Fin 2048) : Fin 32768 :=
  ⟨2048 * (t.val % 16) + s.val, by have := s.isLt; omega⟩

end Cert.KernelIdeal.KValue

end
-- ==== Proof.KBlocks.lean ====
/-
  Reading a grid point's input blocks: each entry of a block is an entry of the whole array at the shifted row.
-/
import proofs.«164561_j48215302865480_1_alg».proof.Proof.KDefs

set_option maxRecDepth 16384

noncomputable section

open scoped BigOperators

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- The input windows' block indices over the grid: the source block is the point's row of blocks, the target tile
    and its potentials the point's position in that row. -/
theorem in_idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 1) = t.val % 16 :=
  (by decide +kernel : ∀ t : Fin grid0.N, _)

/-- Row `r`, lane `d` of point `t`'s source block is the source array's entry at row `xrow t r`. -/
theorem xblk_apply (c : Dev nD) (t : Fin cfg0.N) (r : Fin 1024) (d : Fin 64) :
    xblk m c t (ix2 r d) = xarr m c (ix2 (xrow t r) d) := by
  show V m c main_arg0 (((cfg0.win 0).blk t).view.emb (ix2 r d)) = V m c main_arg0 (ix2 (xrow t r) d)
  obtain ⟨e0, e1, -⟩ := in_idx_facts t
  refine congrArg _ (funext fun a => Fin.ext ?_)
  match a with
  | ⟨0, _⟩ => show win0_0.index t (0 : Fin 2) * 1024 + 1 * r.val = 1024 * (t.val / 16) + r.val; omega
  | ⟨1, _⟩ => show win0_0.index t (1 : Fin 2) * 64 + 1 * d.val = d.val; omega

/-- Row `s`, lane `d` of point `t`'s target tile is the target array's entry at row `yrow t s`. -/
theorem yblk_apply (c : Dev nD) (t : Fin cfg0.N) (s : Fin 2048) (d : Fin 64) :
    yblk m c t (ix2 s d) = yarr m c (ix2 (yrow t s) d) := by
  show V m c main_arg1 (((cfg0.win 1).blk t).view.emb (ix2 s d)) = V m c main_arg1 (ix2 (yrow t s) d)
  obtain ⟨-, -, e2, e3, -⟩ := in_idx_facts t
  refine congrArg _ (funext fun a => Fin.ext ?_)
  match a with
  | ⟨0, _⟩ => show win0_1.index t (0 : Fin 2) * 2048 + 1 * s.val = 2048 * (t.val % 16) + s.val; omega
  | ⟨1, _⟩ => show win0_1.index t (1 : Fin 2) * 64 + 1 * d.val = d.val; omega

/-- Entry `s` of point `t`'s tile of potentials is the potential of row `yrow t s`. -/
theorem pblk_apply (c : Dev nD) (t : Fin cfg0.N) (s : Fin 2048) :
    pblk m c t (ix1 s) = parr m c (ix1 (yrow t s)) := by
  show V m c main_arg2 (((cfg0.win 2).blk t).view.emb (ix1 s)) = V m c main_arg2 (ix1 (yrow t s))
  obtain ⟨-, -, -, -, e4⟩ := in_idx_facts t
  refine congrArg _ (funext fun a => Fin.ext ?_)
  match a with
  | ⟨0, _⟩ => show win0_2.index t (0 : Fin 1) * 2048 + 1 * s.val = 2048 * (t.val % 16) + s.val; omega

end Cert.KernelIdeal.KValue

end
-- ==== Proof.KPieces.lean ====
/-
  What each case of the body leaves, as the body's arithmetic of what it loaded: a first tile leaves the tile's row
  minima in the scratch; a later tile leaves their minimum with what the scratch held; a last tile also copies that
  into the output block (the scratch read back after the store is the stored value).
-/
import proofs.«164561_j48215302865480_1_alg».proof.Proof.BodyI.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem off2_zero : (![0, 0] : Fin 2 → ℕ) = fun _ => 0 := by
  funext a; fin_cases a <;> rfl

theorem off1_zero : (![0] : Fin 1 → ℕ) = fun _ => 0 := by
  funext a; fin_cases a; rfl

/-- A first tile leaves the tile's row minima in the scratch. -/
theorem sout0_A_eq (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : ¬cond0_2 i) (x0 : Vec F S1024x64 .f32) (x1 : Vec F S2048x64 .f32) (x2 : Vec F S2048 .f32) :
    sout0_A c i arg2 harg2 arg3 harg3 arg4 harg4 arg5 harg5 arg6 harg6 hc0 hc1 hc2 x0 x1 x2 = k0_pay2 x0 x1 x2 := by
  unfold sout0_A
  rw [View.read_writes_eq_canon _ _ _ (scover0_A c i arg2 harg2 arg3 harg3 arg4 harg4 arg5 harg5 arg6 harg6 hc0 hc1 hc2 x0 x1 x2)]
  unfold kernelRun0_A
  dsimp only
  sl_unfold_words
  rw [View.canon_unit_zero (S := S1024x1) off2_zero]
  simp only [View.readAt_eq_ld, harg2.read_unread, harg3.read_unread, harg4.read_unread,
    View.ld_unit_zero (S := S1024x64) off2_zero, View.ld_unit_zero (S := S2048x64) off2_zero, View.ld_unit_zero (S := S2048) off1_zero]

/-- A middle tile leaves in the scratch the minimum of what it held with the tile's row minima. -/
theorem sout0_B_eq (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (x0 : Vec F S1024x64 .f32) (x1 : Vec F S2048x64 .f32) (x2 : Vec F S2048 .f32) (xs : Vec F S1024x1 .f32) :
    sout0_B c i arg2 harg2 arg3 harg3 arg4 harg4 arg5 harg5 arg6 harg6 hc0 hc1 hc2 x0 x1 x2 xs = k0_pay3 x0 x1 x2 xs := by
  unfold sout0_B
  rw [View.read_writes_eq_canon _ _ _ (scover0_B c i arg2 harg2 arg3 harg3 arg4 harg4 arg5 harg5 arg6 harg6 hc0 hc1 hc2 x0 x1 x2 xs)]
  unfold kernelRun0_B
  dsimp only
  sl_unfold_words
  rw [View.canon_unit_zero (S := S1024x1) off2_zero]
  simp only [View.readAt_eq_ld, harg2.read_unread, harg3.read_unread, harg4.read_unread, harg6.read_unread,
    View.ld_unit_zero (S := S1024x64) off2_zero, View.ld_unit_zero (S := S2048x64) off2_zero, View.ld_unit_zero (S := S2048) off1_zero,
    View.ld_unit_zero (S := S1024x1) off2_zero]

/-- So does a last tile, -/
theorem sout0_C_eq (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) :
    sout0_C c i arg2 harg2 arg3 harg3 arg4 harg4 arg5 harg5 arg6 harg6 hc0 hc1 hc2 x0 x1 x2 xs = k0_pay3 x0 x1 x2 xs := by
  unfold sout0_C
  rw [View.read_writes_eq_canon _ _ _ (scover0_C c i arg2 harg2 arg3 harg3 arg4 harg4 arg5 harg5 arg6 harg6 hc0 hc1 hc2 x0 x1 x2 xs)]
  unfold kernelRun0_C
  dsimp only
  sl_unfold_words
  rw [View.canon_unit_zero (S := S1024x1) off2_zero]
  simp only [View.readAt_eq_ld, harg2.read_unread, harg3.read_unread, harg4.read_unread, harg6.read_unread,
    View.ld_unit_zero (S := S1024x64) off2_zero, View.ld_unit_zero (S := S2048x64) off2_zero, View.ld_unit_zero (S := S2048) off1_zero,
    View.ld_unit_zero (S := S1024x1) off2_zero]

/-- and it stores the same into the output block. -/
theorem out0_C_eq (c : Dev nD) (i : grid0.Coords) (arg2 : Memref sig .tc .vmem S1024x64 .f32) (harg2 : arg2.IsWhole) (arg3 : Memref sig .tc .vmem S2048x64 .f32) (harg3 : arg3.IsWhole) (arg4 : Memref sig .tc .vmem S2048 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : cond0_2 i) (x0 : Vec F S1024x64 .f32) (x1 : Vec F S2048x64 .f32) (x2 : Vec F S2048 .f32) (xs : Vec F S1024x1 .f32) :
    out0_C c i arg2 harg2 arg3 harg3 arg4 harg4 arg5 harg5 arg6 harg6 hc0 hc1 hc2 x0 x1 x2 xs = k0_pay3 x0 x1 x2 xs := by
  unfold out0_C
  rw [View.read_writes_eq_canon _ _ _ (cover0_C c i arg2 harg2 arg3 harg3 arg4 harg4 arg5 harg5 arg6 harg6 hc0 hc1 hc2 x0 x1 x2 xs)]
  unfold kernelRun0_C
  dsimp only
  sl_unfold_words
  rw [View.canon_unit_zero (S := S1024x1) off2_zero, View.readCov_unit_zero (S := S1024x1) _ off2_zero]
  simp only [View.readAt_eq_ld, harg2.read_unread, harg3.read_unread, harg4.read_unread, harg6.read_unread,
    View.ld_unit_zero (S := S1024x64) off2_zero, View.ld_unit_zero (S := S2048x64) off2_zero, View.ld_unit_zero (S := S2048) off1_zero,
    View.ld_unit_zero (S := S1024x1) off2_zero]

end Cert.KernelIdeal.Body

end
-- ==== Proof.LibMinFold.lean ====
/-
  Minima over finite families of extended reals, and a monotone map through them.

  * The f32 pattern of +∞ denotes the top element, so a minimum folded from it is the infimum of the family.
  * The ideal square root is monotone on all of the extended reals (its junk value below zero is the bottom element),
    so "clamp at zero, then take the root" is monotone and fixes the top element; a monotone map that fixes the top
    commutes with a minimum folded from the top: f (min_i g i) = min_i f (g i).
  * A running minimum over the rows below `a`, joined with the minimum over the next `w` rows, is the running minimum
    over the rows below `a + w`: how a minimum accumulated tile by tile becomes the minimum over the whole axis.
  * A vector `multi_reduction <minimumf>` over one axis, and the host's `reduce` with a minimum body over one axis,
    both from +∞, read at an index as that fold over the axis's coordinates.
-/
import Idealize.ShloMosaic.PureOps.Ideal
import Idealize.ShloMosaic.PureOps.Ideal.Laws
import Idealize.ShloMosaic.PureOps.Reduce

noncomputable section

namespace Cert.MinFold

open Idealize.ShloMosaic

/-- The f32 pattern `0x7F800000` is +∞: the top extended real. -/
theorem ofBits_pinf : Ideal.ofBits .f32 0x7F800000#32 = (⊤ : EReal) := by
  simp [Ideal.ofBits, Ideal.ieee]

/-- The ideal square root is monotone: ⊥ below zero, the real root from zero on, ⊤ at ⊤. -/
theorem sqrt_mono : Monotone Ideal.sqrt := by
  intro x y h
  induction x using EReal.rec with
  | bot => rw [Ideal.sqrt_bot]; exact bot_le
  | top => rw [top_le_iff.mp h]
  | coe r =>
    induction y using EReal.rec with
    | bot => exact absurd h (by simp)
    | top => rw [Ideal.sqrt_top]; exact le_top
    | coe s =>
      have hrs : r ≤ s := EReal.coe_le_coe_iff.mp h
      rw [Ideal.sqrt_coe, Ideal.sqrt_coe]
      by_cases h1 : r < 0
      · rw [if_pos h1]; exact bot_le
      · have h2 : ¬ s < 0 := fun hs => h1 (lt_of_le_of_lt hrs hs)
        rw [if_neg h1, if_neg h2]
        exact EReal.coe_le_coe_iff.mpr (Real.sqrt_le_sqrt hrs)

/-- Clamp below at `z`, then take the root: the distance from a squared distance. -/
def root (z x : EReal) : EReal := Ideal.sqrt (max x z)

theorem root_mono (z : EReal) : Monotone (root z) := fun _ _ h => sqrt_mono (max_le_max h le_rfl)

theorem root_top (z : EReal) : root z ⊤ = ⊤ := by
  unfold root; rw [max_eq_left le_top, Ideal.sqrt_top]

/-- A monotone map that fixes the top commutes with a minimum folded from the top. -/
theorem map_fold_min {ι : Type*} (f : EReal → EReal) (hf : Monotone f) (htop : f ⊤ = ⊤) (s : Finset ι) (g : ι → EReal) :
    f (s.fold min ⊤ g) = s.fold min ⊤ (fun i => f (g i)) := by
  have h := Finset.fold_hom (op := min) (op' := min) (m := f) (s := s) (b := (⊤ : EReal)) (f := g) (fun x y => hf.map_min)
  rw [htop] at h
  exact h.symm

/-- The running minimum over the rows below `a`, joined with the minimum over the next `w` rows, is the running minimum
    over the rows below `a + w`. -/
theorem fold_min_below_add {N : ℕ} (g : Fin N → EReal) (a w : ℕ) (h : a + w ≤ N) :
    min ((Finset.univ.filter fun r : Fin N => r.val < a).fold min ⊤ g)
        ((Finset.univ : Finset (Fin w)).fold min ⊤ fun k => g ⟨a + k.val, by have := k.isLt; omega⟩)
      = (Finset.univ.filter fun r : Fin N => r.val < a + w).fold min ⊤ g := by
  refine eq_of_forall_le_iff fun c => ?_
  rw [le_min_iff, Finset.le_fold_min, Finset.le_fold_min, Finset.le_fold_min]
  constructor
  · rintro ⟨⟨-, h1⟩, -, h2⟩
    refine ⟨le_top, fun r hr => ?_⟩
    have hr' : r.val < a + w := (Finset.mem_filter.mp hr).2
    by_cases hra : r.val < a
    · exact h1 r (Finset.mem_filter.mpr ⟨Finset.mem_univ _, hra⟩)
    · have h3 := h2 ⟨r.val - a, by omega⟩ (Finset.mem_univ _)
      have e : (⟨a + (r.val - a), by omega⟩ : Fin N) = r := Fin.ext (by show a + (r.val - a) = r.val; omega)
      rw [e] at h3
      exact h3
  · rintro ⟨-, h3⟩
    refine ⟨⟨le_top, fun r hr => h3 r (Finset.mem_filter.mpr ⟨Finset.mem_univ _, ?_⟩)⟩, le_top, fun k _ =>
      h3 _ (Finset.mem_filter.mpr ⟨Finset.mem_univ _, ?_⟩)⟩
    · have := (Finset.mem_filter.mp hr).2; omega
    · show a + k.val < a + w; have := k.isLt; omega

/-- Below no row the running minimum is the top. -/
theorem fold_min_below_zero {N : ℕ} (g : Fin N → EReal) :
    (Finset.univ.filter fun r : Fin N => r.val < 0).fold min ⊤ g = ⊤ := by
  rw [Finset.filter_false_of_mem (fun r _ => Nat.not_lt_zero _)]
  rfl

/-- Below every row it is the minimum over the whole axis. -/
theorem fold_min_below_all {N : ℕ} (g : Fin N → EReal) :
    (Finset.univ.filter fun r : Fin N => r.val < N).fold min ⊤ g = Finset.univ.fold min ⊤ g := by
  rw [Finset.filter_true_of_mem (fun r _ => r.isLt)]

/-- A vector `multi_reduction <minimumf>` from +∞ over one axis, read at the ideal values: the minimum over that axis's
    coordinates. -/
theorem multiReduction_minimumf_single {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).fold min ⊤ (fun k => src (h.lift j k)) := by
  rw [multiReduction_minimumf_eq_fold, h.fold_filter_drop_single _ _ src j]
  show Finset.fold min (Ideal.ofBits .f32 0x7F800000#32) _ _ = _
  rw [ofBits_pinf]
  rfl

/-- The host's `reduce` with a minimum body from +∞ over one axis, read at the ideal values: the same minimum. -/
theorem hostReduce_minimumf_single {s t : Shape} {a : Fin s.rank} (x : FVec Ideal s .f32)
    (h' : s.ReducesTo [a] t) (h : s.Reduces [a] t) (hu : 0 < (⟨0, ![]⟩ : Shape).numel) (j : t.Idx) :
    Host.reduce FloatOps.minimumf x (constant (⟨0, ![]⟩ : Shape) .f32 0x7F800000#32) h' hu j
      = (Finset.univ : Finset (Fin (s.size a))).fold min ⊤ (fun k => x (h.lift j k)) := by
  rw [Host.reduce_eq_fold_single FloatOps.minimumf x _ h' h hu]
  show Finset.fold min (Ideal.ofBits .f32 0x7F800000#32) _ _ = _
  rw [ofBits_pinf]
  rfl

end Cert.MinFold

end
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.PayIdx.lean ====
/-
  The kernel body's arithmetic read at an index.

  For a block `x` of 1024 rows, a block `y` of 2048 rows (64 lanes each) and the 2048 potentials `p` of `y`'s rows, the
  body forms the tile of costs ((|x_r|² + |y_s|²) − 2 · ⟨x_r, y_s⟩) − p_s and takes each row's minimum from +∞, as a
  [1024, 1] column. Read at row `r`:
  • the squared lengths are lane sums of the entrywise squares, the first block's cast to a column and broadcast along
    the rows, the second block's cast to a row and broadcast down the columns;
  • the product of the two blocks into the zero accumulator, contracting the lanes of both, is at `(r, s)` the inner
    product of row `r` of `x` with row `s` of `y` (the narrowing of the operands is the identity on extended reals);
  • the lane minimum from +∞ is the minimum over `s` of the tile's row `r`.
  So the column at `(r, 0)` is `Spec.rowMin x y p r`; its cast to its own shape reads the same, and its join with a
  carried column is the smaller of the carried entry and that minimum.
-/
import proofs.«164561_j48215302865480_1_alg».proof.Proof.Gen.KernelIdeal.Skeleton
import proofs.«164561_j48215302865480_1_alg».proof.Proof.Spec
import proofs.«164561_j48215302865480_1_alg».proof.Proof.LibMinFold
import proofs.«164561_j48215302865480_1_alg».proof.Proof.LibRowReduce
import proofs.«164561_j48215302865480_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen

/-- The left operand's index of the product at output row-column `i`: its row is the output's row. -/
theorem lhs_axis0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
/-- Its lane is the contraction coordinate. -/
theorem lhs_axis1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
/-- The right operand's row is the output's column. -/
theorem rhs_axis0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
/-- Its lane is the contraction coordinate. -/
theorem rhs_axis1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The product of the two blocks into the zero accumulator, at row `r` and column `s`: the inner product of row `r` of the
    left block with row `s` of the right block. -/
theorem matmul_rows_apply (a : FVec Ideal S1024x64 .bf16) (b : FVec Ideal S2048x64 .bf16) (r : Fin 1024) (s : Fin 2048) :
    matmul dot_S1024x64_S2048x64_S1024x2048_1_1_0_0_n_n none a b (constant (F := Ideal) S1024x2048 .f32 0x00000000#32) (ix2 r s)
      = ∑ d : Fin 64, a (ix2 r d) * b (ix2 s d) := by
  simp only [matmul]
  rw [Ideal.matmul_constant_zero_apply, ← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 r s) ((contrEquiv1 dot_S1024x64_S2048x64_S1024x2048_1_1_0_0_n_n 64 rfl rfl).symm k) = ix2 r k := funext fun c => Fin.ext (by
    match c with
    | ⟨0, _⟩ => exact lhs_axis0 _ _
    | ⟨1, _⟩ => exact (lhs_axis1 _ _).trans hk)
  have er : dot_S1024x64_S2048x64_S1024x2048_1_1_0_0_n_n.rhsIdx (ix2 r s) ((contrEquiv1 dot_S1024x64_S2048x64_S1024x2048_1_1_0_0_n_n 64 rfl rfl).symm k) = ix2 s k := funext fun c => Fin.ext (by
    match c with
    | ⟨0, _⟩ => exact rhs_axis0 _ _
    | ⟨1, _⟩ => exact (rhs_axis1 _ _).trans hk)
  rw [el, er]

/-- A lane reduction with a minimum body from +∞ over the columns, at row `r`: the minimum over that row's entries. -/
theorem multiReduction_minimumf_row {R D : ℕ} (x : FVec Ideal ⟨2, ![R, D]⟩ .f32)
    (h : (⟨2, ![R, D]⟩ : Shape).Reduces [1] (⟨1, ![R]⟩ : Shape)) (hφ : FKind.Formats .f32)
    (hacc : (0x7F800000#32 : BitVec 32) = FKind.minimumf.neutral .f32 hφ) (r : Fin R) :
    multiReduction .minimumf [1] ⟨1, ![R]⟩ x 0x7F800000#32 h hφ hacc (ix1 r)
      = (Finset.univ : Finset (Fin D)).fold min ⊤ (fun k => x (ix2 r k)) := by
  rw [Cert.MinFold.multiReduction_minimumf_single]
  have hf : (fun k => x (h.lift (ix1 r) k)) = fun k : Fin D => x (ix2 r k) :=
    funext fun k => congrArg x (RowReduce.lift_row h r k)
  exact congrArg (fun f => Finset.fold min ⊤ f (Finset.univ : Finset (Fin D))) hf

/-- The squared lengths of the first block's rows, as a column broadcast over the tile: at `(r, s)` the squared length of row `r`. -/
theorem sq_col_apply (x : FVec Ideal S1024x64 .f32) (hφ : FKind.Formats .f32)
    (hacc : (0x00000000#32 : BitVec 32) = FKind.add.neutral .f32 hφ) (r : Fin 1024) (s : Fin 2048) :
    broadcastTo S1024x2048 (shapeCast S1024x1
        (multiReduction (F := Ideal) .add [1] S1024 (mulf x x) 0x00000000#32 reduces_S1024x64_S1024 hφ hacc)
        shapeCasts_S1024_S1024x1) broadcasts_S1024x1_S1024x2048 (ix2 r s) = Cert.Spec.sq x r := by
  refine (Cert.Keepdims.broadcastTo_a1_ab_apply _ _ r s).trans ?_
  refine (Cert.Keepdims.shapeCast_a_a1_apply _ _ r 0).trans ?_
  exact RowReduce.multiReduction_add_row _ _ _ _ _ r

/-- The squared lengths of the second block's rows, as a row broadcast over the tile: at `(r, s)` the squared length of row `s`. -/
theorem sq_row_apply (y : FVec Ideal S2048x64 .f32) (hφ : FKind.Formats .f32)
    (hacc : (0x00000000#32 : BitVec 32) = FKind.add.neutral .f32 hφ) (r : Fin 1024) (s : Fin 2048) :
    broadcastTo S1024x2048 (shapeCast S1x2048
        (multiReduction (F := Ideal) .add [1] S2048 (mulf y y) 0x00000000#32 reduces_S2048x64_S2048 hφ hacc)
        shapeCasts_S2048_S1x2048) broadcasts_S1x2048_S1024x2048 (ix2 r s) = Cert.Spec.sq y s := by
  refine (broadcastTo_1b_ab_apply _ _ r s).trans ?_
  refine (shapeCast_a_1a_apply _ _ 0 s).trans ?_
  exact RowReduce.multiReduction_add_row _ _ _ _ _ s

/-- The potentials as a row broadcast over the tile: at `(r, s)` the potential of row `s`. -/
theorem pot_row_apply (p : FVec Ideal S2048 .f32) (r : Fin 1024) (s : Fin 2048) :
    broadcastTo S1024x2048 (shapeCast S1x2048 p shapeCasts_S2048_S1x2048) broadcasts_S1x2048_S1024x2048 (ix2 r s)
      = p (ix1 s) := by
  refine (broadcastTo_1b_ab_apply _ _ r s).trans ?_
  exact shapeCast_a_1a_apply _ _ 0 s

/-- The tile's row minima read at row `r`: the least cost of row `r` over the rows of the second block. -/
theorem pay1_apply (x0 : Vec Ideal S1024x64 .f32) (x1 : Vec Ideal S2048x64 .f32) (x2 : Vec Ideal S2048 .f32) (r : Fin 1024) :
    k0_pay1 (F := Ideal) x0 x1 x2 (ix2 r (0 : Fin 1)) = Cert.Spec.rowMin x0 x1 x2 r := by
  unfold k0_pay1
  refine (Cert.Keepdims.shapeCast_a_a1_apply _ _ r 0).trans ?_
  refine (multiReduction_minimumf_row _ _ _ _ r).trans ?_
  unfold Cert.Spec.rowMin
  refine congrArg (fun f => Finset.fold min ⊤ f Finset.univ) (funext fun s => ?_)
  exact congrArg₂ (· - ·)
    (congrArg₂ (· - ·) (congrArg₂ (· + ·) (sq_col_apply x0 _ _ r s) (sq_row_apply x1 _ _ r s))
      (congrArg₂ (· * ·) rfl (matmul_rows_apply _ _ r s)))
    (pot_row_apply x2 r s)

/-- The cast of the row minima to their own shape reads the same. -/
theorem pay2_apply (x0 : Vec Ideal S1024x64 .f32) (x1 : Vec Ideal S2048x64 .f32) (x2 : Vec Ideal S2048 .f32) (r : Fin 1024) :
    k0_pay2 (F := Ideal) x0 x1 x2 (ix2 r (0 : Fin 1)) = Cert.Spec.rowMin x0 x1 x2 r := by
  unfold k0_pay2
  rw [shapeCast_self]
  exact pay1_apply x0 x1 x2 r

/-- The carried column joined with the tile's row minima, at row `r`: the smaller of the carried entry and the least cost of row `r`. -/
theorem pay3_apply (x0 : Vec Ideal S1024x64 .f32) (x1 : Vec Ideal S2048x64 .f32) (x2 : Vec Ideal S2048 .f32)
    (xs : Vec Ideal S1024x1 .f32) (r : Fin 1024) :
    k0_pay3 (F := Ideal) x0 x1 x2 xs (ix2 r (0 : Fin 1)) = min (xs (ix2 r (0 : Fin 1))) (Cert.Spec.rowMin x0 x1 x2 r) := by
  unfold k0_pay3
  rw [shapeCast_self]
  exact congrArg (min (xs (ix2 r (0 : Fin 1)))) (pay1_apply x0 x1 x2 r)

end Cert.KernelIdeal.PayIdx

end
-- ==== Proof.KInv.lean ====
/-
  The running minimum, point by point.

  Write `X`, `Y`, `P` for the source array, the target array and the potentials. Point `t` works on source rows
  `1024·(t / 16) + r` and on the tile of target rows `2048·(t mod 16) + s`; a block's cost at `(r, s)` is the arrays'
  cost at those rows, so the tile's row minimum is the minimum of the arrays' cost over the tile's target rows.
  Joining it with the minimum over the target rows below the tile gives the minimum over the target rows below the
  tile's end. Hence, by induction along a row of tiles: after point `t` the scratch holds at row `r` the least cost
  of source row `1024·(t / 16) + r` over the target rows below `2048·(t mod 16 + 1)` — the first tile starts from the
  top element, which is the minimum over no rows —, and at the last tile, where that bound is the whole axis, the
  output block receives the least cost over all target rows.
-/
import proofs.«164561_j48215302865480_1_alg».proof.Proof.KDefs
import proofs.«164561_j48215302865480_1_alg».proof.Proof.KBlocks
import proofs.«164561_j48215302865480_1_alg».proof.Proof.KPieces
import proofs.«164561_j48215302865480_1_alg».proof.Proof.PayIdx
import proofs.«164561_j48215302865480_1_alg».proof.Proof.LibMinFold

set_option maxRecDepth 16384

noncomputable section

open scoped BigOperators

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- The tile's row minimum is the minimum of the arrays' cost over the tile's target rows. -/
theorem tile_rowMin (c : Dev nD) (t : Fin cfg0.N) (r : Fin 1024) :
    Cert.Spec.rowMin (xblk m c t) (yblk m c t) (pblk m c t) r
      = (Finset.univ : Finset (Fin 2048)).fold min ⊤ (fun k => Cert.Spec.cost (xarr m c) (yarr m c) (parr m c) (xrow t r)
          ⟨2048 * (t.val % 16) + k.val, by have := k.isLt; omega⟩) := by
  unfold Cert.Spec.rowMin
  refine congrArg (fun f => Finset.fold min ⊤ f (Finset.univ : Finset (Fin 2048))) (funext fun k => ?_)
  exact Cert.Spec.cost_block (xarr m c) (yarr m c) (parr m c) (xblk m c t) (yblk m c t) (pblk m c t)
    (1024 * (t.val / 16)) (2048 * (t.val % 16)) r k (xrow t r).isLt (yrow t k).isLt
    (fun d => xblk_apply m c t r d) (fun d => yblk_apply m c t k d) (pblk_apply m c t k)

/-- The minimum over the target rows below the tile, joined with the tile's row minimum, is the minimum over the
    target rows below the tile's end. -/
theorem step (c : Dev nD) (t : Fin cfg0.N) (r : Fin 1024) :
    min (Cert.Spec.rowMinBelow (xarr m c) (yarr m c) (parr m c) (2048 * (t.val % 16)) (xrow t r))
        (Cert.Spec.rowMin (xblk m c t) (yblk m c t) (pblk m c t) r)
      = Cert.Spec.rowMinBelow (xarr m c) (yarr m c) (parr m c) (2048 * (t.val % 16 + 1)) (xrow t r) := by
  rw [tile_rowMin]
  unfold Cert.Spec.rowMinBelow
  rw [show 2048 * (t.val % 16 + 1) = 2048 * (t.val % 16) + 2048 from by omega]
  exact Cert.MinFold.fold_min_below_add (N := 32768) (Cert.Spec.cost (xarr m c) (yarr m c) (parr m c) (xrow t r))
    (2048 * (t.val % 16)) 2048 (by omega)

/-- At a row's first tile there are no target rows below the tile. -/
theorem below_first (c : Dev nD) (t : Fin cfg0.N) (h0 : t.val % 16 = 0) (r : Fin 1024) :
    Cert.Spec.rowMinBelow (xarr m c) (yarr m c) (parr m c) (2048 * (t.val % 16)) (xrow t r) = ⊤ := by
  unfold Cert.Spec.rowMinBelow
  rw [h0, Nat.mul_zero]
  exact Cert.MinFold.fold_min_below_zero _

/-- A first tile's scratch. -/
theorem scAt_first (c : Dev nD) (t : Fin cfg0.N) (h0 : t.val % 16 = 0) (r : Fin 1024) :
    scAt m c t.val t.isLt (ix2 r (0 : Fin 1))
      = Cert.Spec.rowMinBelow (xarr m c) (yarr m c) (parr m c) (2048 * (t.val % 16 + 1)) (xrow t r) := by
  rw [scAt_A m c t h0]
  unfold scA
  rw [sout0_A_eq]
  refine (Cert.KernelIdeal.PayIdx.pay2_apply _ _ _ r).trans ?_
  rw [← step m c t r, below_first m c t h0 r]
  exact (min_eq_right le_top).symm

/-- A later tile's join, given what the point before left. -/
theorem join_later (c : Dev nD) (t : Fin cfg0.N) (h0 : ¬ t.val % 16 = 0) (r : Fin 1024)
    (ih : scAt m c (t.val - 1) (Nat.lt_of_le_of_lt (Nat.sub_le _ _) t.isLt) (ix2 r (0 : Fin 1))
      = Cert.Spec.rowMinBelow (xarr m c) (yarr m c) (parr m c) (2048 * ((t.val - 1) % 16 + 1))
          (xrow ⟨t.val - 1, Nat.lt_of_le_of_lt (Nat.sub_le _ _) t.isLt⟩ r)) :
    k0_pay3 (F := Ideal) (iblk m c 0 t) (iblk m c 1 t) (iblk m c 2 t)
        (scAt m c (t.val - 1) (Nat.lt_of_le_of_lt (Nat.sub_le _ _) t.isLt)) (ix2 r (0 : Fin 1))
      = Cert.Spec.rowMinBelow (xarr m c) (yarr m c) (parr m c) (2048 * (t.val % 16 + 1)) (xrow t r) := by
  refine (Cert.KernelIdeal.PayIdx.pay3_apply _ _ _ _ r).trans ?_
  rw [ih]
  have e1 : (t.val - 1) % 16 + 1 = t.val % 16 := by omega
  have e2 : xrow ⟨t.val - 1, Nat.lt_of_le_of_lt (Nat.sub_le _ _) t.isLt⟩ r = xrow t r := Fin.ext (by
    show 1024 * ((t.val - 1) / 16) + r.val = 1024 * (t.val / 16) + r.val
    have : (t.val - 1) / 16 = t.val / 16 := by omega
    rw [this])
  rw [e1, e2]
  exact step m c t r

/-- After point `n` the scratch holds, at row `r`, the least cost of its source row over the target rows below the end
    of the point's tile. -/
theorem scAt_apply_aux (c : Dev nD) : ∀ (n : ℕ) (hn : n < cfg0.N) (r : Fin 1024),
    scAt m c n hn (ix2 r (0 : Fin 1))
      = Cert.Spec.rowMinBelow (xarr m c) (yarr m c) (parr m c) (2048 * (n % 16 + 1)) (xrow ⟨n, hn⟩ r) := by
  intro n
  induction n with
  | zero => intro hn r; exact scAt_first m c ⟨0, hn⟩ (Nat.zero_mod _) r
  | succ n ih =>
    intro hn r
    by_cases h0 : (n + 1) % 16 = 0
    · exact scAt_first m c ⟨n + 1, hn⟩ h0 r
    · have ihn := ih (Nat.lt_of_succ_lt hn) r
      by_cases h2 : (n + 1) % 16 = 15
      · rw [scAt_C m c ⟨n + 1, hn⟩ h2]
        unfold scC
        rw [sout0_C_eq]
        exact join_later m c ⟨n + 1, hn⟩ h0 r ihn
      · rw [scAt_B m c ⟨n + 1, hn⟩ h0 h2]
        unfold scB
        rw [sout0_B_eq]
        exact join_later m c ⟨n + 1, hn⟩ h0 r ihn

/-- After point `t` the scratch holds, at row `r`, the least cost of source row `xrow t r` over the target rows below the
    end of point `t`'s tile. -/
theorem scAt_apply (c : Dev nD) (t : Fin cfg0.N) (r : Fin 1024) :
    scAt m c t.val t.isLt (ix2 r (0 : Fin 1))
      = Cert.Spec.rowMinBelow (xarr m c) (yarr m c) (parr m c) (2048 * (t.val % 16 + 1)) (xrow t r) :=
  scAt_apply_aux m c t.val t.isLt r

/-- At a row's last tile the output block holds, at row `r`, the least cost of source row `xrow t r` over all target rows. -/
theorem outAt_apply (c : Dev nD) (t : Fin cfg0.N) (h2 : t.val % 16 = 15) (r : Fin 1024) :
    outAt m c t (ix2 r (0 : Fin 1)) = Cert.Spec.rowMin (xarr m c) (yarr m c) (parr m c) (xrow t r) := by
  have h0 : ¬ t.val % 16 = 0 := by omega
  rw [outAt_C m c t h2]
  unfold outC
  rw [out0_C_eq]
  refine (join_later m c t h0 r (scAt_apply_aux m c (t.val - 1) _ r)).trans ?_
  unfold Cert.Spec.rowMinBelow Cert.Spec.rowMin
  rw [h2]
  exact Cert.MinFold.fold_min_below_all (N := 32768) _

end Cert.KernelIdeal.KValue

end
-- ==== Proof.KFinal.lean ====
/-
  What the output array holds at the end: at every row the least cost of that source row over all target rows.

  The output block of a row of blocks is written back at the row's last tile, where it holds the row minima of the
  block's 1024 source rows; the eight written blocks tile the 8192 rows, so the array ends as the row minima.
-/
import proofs.«164561_j48215302865480_1_alg».proof.Proof.KDefs
import proofs.«164561_j48215302865480_1_alg».proof.Proof.KInv
import Idealize.ShloMosaic.Lib.Pipeline.Value

set_option maxRecDepth 16384

noncomputable section

open scoped BigOperators

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- The row minima of the whole arrays, as a column of 8192 rows. -/
def rowMinCol (c : Dev nD) : Vec Ideal S8192x1 .f32 :=
  fun i => Cert.Spec.rowMin (xarr m c) (yarr m c) (parr m c) (i 0)

/-- The output window's block indices over the grid: the point's row of blocks, and the one column. -/
theorem out_idx_facts : ∀ t : Fin cfg0.N, win0_3.index t (0 : Fin 2) = t.val / 16 ∧ win0_3.index t (1 : Fin 2) = 0 :=
  (by decide +kernel : ∀ t : Fin grid0.N, _)

/-- At a row's last tile, entry `j` of the output block is the row minimum of the source row it sits at. -/
theorem outAt_idx (c : Dev nD) (t : Fin cfg0.N) (h2 : t.val % 16 = 15) (j : S1024x1.Idx) (i : S8192x1.Idx)
    (hi : (i 0).val = 1024 * (t.val / 16) + (j 0).val) :
    outAt m c t j = rowMinCol m c i := by
  obtain ⟨r, u, rfl⟩ : ∃ (r : Fin 1024) (u : Fin 1), j = ix2 r u := ⟨j 0, j 1, eq_ix2 j⟩
  obtain rfl : u = 0 := Subsingleton.elim _ _
  rw [outAt_apply m c t h2 r]
  unfold rowMinCol
  exact congrArg _ (Fin.ext hi.symm)

/-- What a row's last tile writes back is its block of the row minima. -/
theorem flushed_eq (c : Dev nD) (t : Fin cfg0.N) (hf : (cfg0.win 3).flush t = true) :
    (dats m 0 c).flushed 3 t = ((cfg0.win 3).blk t).view.read (Elt Ideal) (rowMinCol m c) := by
  have h2 : t.val % 16 = 15 := (flush0_3 t).mp hf
  show (cfg0.win 3).cut (grid0.coords t) ((dats m 0 c).after 3 t) = _
  rw [after0_3]
  obtain ⟨e0, e1⟩ := out_idx_facts t
  refine funext fun j => ?_
  have hcut : ∀ X : S1024x1.Idx → EReal, (cfg0.win 3).cut (grid0.coords t) X j = X j := fun _ => rfl
  have hread : ∀ G : Vec Ideal S8192x1 .f32,
      View.read (Elt Ideal) ((cfg0.win 3).blk t).view G j = G (((cfg0.win 3).blk t).view.emb j) := fun _ => rfl
  refine (hcut _).trans (Eq.trans ?_ (hread _).symm)
  refine outAt_idx m c t h2 j _ ?_
  show win0_3.index t (0 : Fin 2) * 1024 + 1 * ((j : S1024x1.Idx) 0).val = 1024 * (t.val / 16) + ((j : S1024x1.Idx) 0).val
  omega

/-- An index of the array is in point `t`'s block iff each coordinate is in the block's range on its axis. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0).slice (win0_3.rect t)).set ↔ _
  rw [View.set_slice_whole, Rect.mem_set_unit]
  exact Iff.rfl

/-- Row `n` is in the block written back at the last tile of its row of blocks, point `16 · (n / 1024) + 15`. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 128 := N_0
  obtain ⟨t, htv⟩ : ∃ t : Fin cfg0.N, t.val = 16 * ((i 0).val / 1024) + 15 :=
    ⟨⟨16 * ((i 0).val / 1024) + 15, lt_of_lt_of_eq (by omega) hN.symm⟩, rfl⟩
  obtain ⟨e0, e1⟩ := out_idx_facts t
  refine ⟨t, (flush0_3 t).mpr (by omega), ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- THE OUTPUT ARRAY after the run: at every row the least cost of that source row over all target rows. -/
theorem final_out (c : Dev nD) : ((dats m 0 c).arrAt 3 cfg0.N : Vec Ideal S8192x1 .f32)
    = fun i => Cert.Spec.rowMin (xarr m c) (yarr m c) (parr m c) (i 0) :=
  (dats m 0 c).arrAt_eq_of_cover 3 (rowMinCol m c) (fun t hf => flushed_eq m c t hf) cover

end Cert.KernelIdeal.KValue

end
-- ==== Proof.KTail.lean ====
/-
  The end of the kernel's program: from the row minima to the result.

  After the region the program adds the mean of the potentials to every row's minimum: it sums the potentials from
  the zero word, divides by the word of 32768, lays the region's column of 8192 minima out as a vector, and adds the
  mean to every entry. The column [8192, 1] and the vector [8192] list the same entries in the same order, so entry n
  of the vector is entry (n, 0) of the column. Once the region's output column is known to hold the row minima, the
  program's result is therefore the specification's common end applied to them; the mean is the same term on both sides
  and is never opened. The argument arrays are inputs of the region, which writes none of them back, and no later line
  writes them.
-/
import proofs.«164561_j48215302865480_1_alg».proof.Proof.KDefs
import Idealize.ShloMosaic.Lib.Pipeline.Value
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- A column `[a, 1]` laid out as a vector `[a]` reads, at `i`, the column's entry of row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- If the region leaves the row minima in its output column, the program's result is the row minima plus the mean of
    the potentials. -/
theorem result_of_final (c : Dev nD)
    (hfin : ((dats m 0 c).arrAt 3 cfg0.N : Vec Ideal S8192x1 .f32) = fun i => Cert.Spec.rowMin (xarr m c) (yarr m c) (parr m c) (i 0)) :
    Pipeline.afterTail₀ cfgs (dats m) 0 (V0 m) [hostOps1] c main_v5
      = Cert.Spec.tail bcast_S_S8192 reducesTo_S32768_S_d0 h_S_ (fun i => Cert.Spec.rowMin (xarr m c) (yarr m c) (parr m c) (i 0)) (parr m c) := by
  unfold Pipeline.afterTail₀
  show StableHlo.after hostOps1 _ (Proc.devRef .tc main_v5) = _
  after_results
  -- the region's output column, and the potentials as the later lines find them
  have h0 : (Pipeline.withArrays (cfgs 0).spec c (V0 m c) (fun w => (dats m 0 c).arrAt w (cfgs 0).N) (Proc.devRef .tc main_v0) : Vec Ideal S8192x1 .f32)
      = fun i => Cert.Spec.rowMin (xarr m c) (yarr m c) (parr m c) (i 0) :=
    (Pipeline.withArrays_arr spec0 launch0.win.arr_inj c _ _ 3).trans hfin
  have h2 : (Pipeline.withArrays (cfgs 0).spec c (V0 m c) (fun w => (dats m 0 c).arrAt w (cfgs 0).N) (Proc.devRef .tc main_arg2) : Vec Ideal S32768 .f32)
      = parr m c :=
    (Pipeline.withArrays_arr spec0 launch0.win.arr_inj c _ _ 2).trans (((dats m 0 c).arrAt_in 2 rfl _).trans (A_eq m c 2))
  rw [h0, h2]
  unfold Cert.Spec.tail
  -- the mean is the same term on both sides; what is left is the column read as a vector
  refine congrArg (fun v : FVec Ideal S8192 .f32 => addf v _) ?_
  funext i
  obtain ⟨n, rfl⟩ : ∃ n : Fin 8192, i = ix1 n := ⟨i 0, eq_ix1 i⟩
  exact shapeCast_a1_a_apply (fun i : S8192x1.Idx => Cert.Spec.rowMin (xarr m c) (yarr m c) (parr m c) (i 0)) shapeCasts_S8192x1_S8192 n

/-- Every run of the program, if the region leaves the row minima in its output column on every core, ends with the
    specification in its result and its three arguments unchanged. -/
theorem run_of_final (ρ : Dev nD → PrngReg)
    (hfin : ∀ c : Dev nD, ((dats m 0 c).arrAt 3 cfg0.N : Vec Ideal S8192x1 .f32)
      = fun i => Cert.Spec.rowMin (xarr m c) (yarr m c) (parr m c) (i 0)) :
    θ_run defs (onTc (τ := τ) (main (F := Ideal))) ⟨m, fun _ => 0, ρ⟩ (fun r => ∀ c : Dev nD,
      r.2.mem ((c.tc : Thread nD τ).loc main_v5) = Cert.Spec.tail bcast_S_S8192 reducesTo_S32768_S_d0 h_S_
          (fun i => Cert.Spec.rowMin (m ((c.tc : Thread nD τ).loc main_arg0)) (m ((c.tc : Thread nD τ).loc main_arg1)) (m ((c.tc : Thread nD τ).loc main_arg2)) (i 0))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 rfl (by decide))).trans (result_of_final m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.KernelIdeal.KValue

end
-- ==== Proof.KRun.lean ====
/-
  The idealized kernel's run with its result named: every execution ends with the result array at the row minima
  plus the mean of the potentials, and the three arguments as they began — the region leaves the row minima in its
  output column, and the lines after the region turn that column into the result.
-/
import proofs.«164561_j48215302865480_1_alg».proof.Proof.KFinal
import proofs.«164561_j48215302865480_1_alg».proof.Proof.KTail

set_option maxRecDepth 16384

noncomputable section

open scoped BigOperators

namespace Cert.KernelIdeal.KValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (m : (ℓ : Loc nD τ sig) → Buf (Elt Ideal) ℓ)

/-- Every run of the idealized kernel ends with the specification in its result and its arguments unchanged. -/
theorem run_spec (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Spec.tail bcast_S_S8192 reducesTo_S32768_S_d0 h_S_
          (fun i => Cert.Spec.rowMin (m ((c.tc : Thread nD τ).loc main_arg0)) (m ((c.tc : Thread nD τ).loc main_arg1)) (m ((c.tc : Thread nD τ).loc main_arg2)) (i 0))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of_final m ρ (fun c => final_out m c)

end Cert.KernelIdeal.KValue

end
-- ==== Proof.RefSide.lean ====
/-
  The reference program computes the specification.

  Its result at row n is the minimum, taken from +∞ over all rows m of the second matrix, of
      ((|x_n|² + |y_m|²) − 2·⟨x_n, y_m⟩) − p_m,
  plus the mean of p. Each of the program's whole-array operations is read at an index: a broadcast reads its operand
  at the coordinates it keeps, a row sum is the zero word plus the sum of the row's entries, the contraction is the sum
  of the products along the shared axis, and the minimum over the second axis is the fold of min from ⊤ over that axis's
  coordinates. Entry (n, m) of the array the minimum is taken over is then literally the cost of pairing row n with row
  m, so the minimum is the specification's row minimum; the closing addition of the mean is the same term on both sides
  and is never opened.
-/
import proofs.«164561_j48215302865480_1_alg».proof.Proof.Gen.ReferenceIdeal.Run
import proofs.«164561_j48215302865480_1_alg».proof.Proof.Gen.ReferenceIdeal.Read
import proofs.«164561_j48215302865480_1_alg».proof.Proof.Spec
import proofs.«164561_j48215302865480_1_alg».proof.Proof.LibMinFold
import proofs.«164561_j48215302865480_1_alg».proof.Proof.LibRowReduce

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## The coordinates each operation reads -/

/-- The left operand of the contraction at entry (n, m), term k: row n, column k. -/
theorem lidx_entry (n : Fin 8192) (m : Fin 32768) (k : Fin 64) : lidx_main_v9 (ix2 n m) k = ix2 n k :=
  funext fun a => Fin.ext (by match a with | ⟨0, _⟩ => rfl | ⟨1, _⟩ => rfl)

/-- The right operand of the contraction at entry (n, m), term k: row m, column k. -/
theorem ridx_entry (n : Fin 8192) (m : Fin 32768) (k : Fin 64) : ridx_main_v9 (ix2 n m) k = ix2 m k :=
  funext fun a => Fin.ext (by match a with | ⟨0, _⟩ => rfl | ⟨1, _⟩ => rfl)

/-- The squared length of a row of the first matrix sums that row's entries. -/
theorem idx_sq_x (n : Fin 8192) (k : Fin 64) : idx_main_v1 (ix1 n) k = ix2 n k :=
  funext fun a => Fin.ext (by match a with | ⟨0, _⟩ => rfl | ⟨1, _⟩ => rfl)

/-- The squared length of a row of the second matrix sums that row's entries. -/
theorem idx_sq_y (m : Fin 32768) (k : Fin 64) : idx_main_v4 (ix1 m) k = ix2 m k :=
  funext fun a => Fin.ext (by match a with | ⟨0, _⟩ => rfl | ⟨1, _⟩ => rfl)

/-- The column of squared lengths of the first matrix, spread over the columns: entry (n, m) reads row n. -/
theorem idx_col_x (n : Fin 8192) (m : Fin 32768) : idx_main_v2 (idx_main_v6 (ix2 n m)) = ix1 n :=
  funext fun a => Fin.ext (by match a with | ⟨0, _⟩ => rfl)

/-- The row of squared lengths of the second matrix, spread over the rows: entry (n, m) reads row m. -/
theorem idx_row_y (n : Fin 8192) (m : Fin 32768) : idx_main_v5 (idx_main_v7 (ix2 n m)) = ix1 m :=
  funext fun a => Fin.ext (by match a with | ⟨0, _⟩ => rfl)

/-- The potential spread over the rows: entry (n, m) reads its entry m. -/
theorem idx_row_p (n : Fin 8192) (m : Fin 32768) : idx_main_v13 (idx_main_v14 (ix2 n m)) = ix1 m :=
  funext fun a => Fin.ext (by match a with | ⟨0, _⟩ => rfl)

/-! ## One entry of the cost array -/

/-- Entry (n, m) of the array the minimum is taken over is the cost of pairing row n with row m. -/
theorem entry_eq_cost (x : FVec Ideal S8192x64 .f32) (y : FVec Ideal S32768x64 .f32) (p : FVec Ideal S32768 .f32)
    (n : Fin 8192) (m : Fin 32768) :
    val_main_v15 (F := Ideal) x y p (ix2 n m) = Cert.Spec.cost x y p n m := by
  rw [val_main_v15_apply, val_main_v12_apply, val_main_v8_apply, val_main_v6_apply, val_main_v2_apply, val_main_v1_apply,
    val_main_v7_apply, val_main_v5_apply, val_main_v4_apply, val_main_v11_apply, val_main_v10_apply, val_main_v9_apply,
    val_main_v14_apply, val_main_v13_apply]
  simp only [idx_col_x, idx_row_y, idx_row_p, idx_sq_x, idx_sq_y, lidx_entry, ridx_entry, val_main_v0_apply, val_main_v3_apply,
    val_main_cst_apply, val_main_cst_0_apply, val_main_cst_1_apply, Ideal.ofBits_def, Ideal.ofBits_zero_f32, zero_add,
    Ideal.addf_def, Ideal.subf_def, Ideal.mulf_def]
  rfl

/-! ## The minimum over the second axis -/

/-- The shape fact that names the coordinate put back on the reduced axis. -/
theorem reduces_rows : S8192x32768.Reduces [1] S8192 := by decide

/-- The minimum over the second axis at row n is the specification's row minimum. -/
theorem rowMin_eq (x : FVec Ideal S8192x64 .f32) (y : FVec Ideal S32768x64 .f32) (p : FVec Ideal S32768 .f32) (n : Fin 8192) :
    val_main_v16 (F := Ideal) x y p (ix1 n) = Cert.Spec.rowMin x y p n := by
  unfold val_main_v16 val_main_cst_2
  rw [Cert.MinFold.hostReduce_minimumf_single _ reducesTo_S8192x32768_S8192_d1 reduces_rows h_S_]
  have hf : (val_main_v15 (F := Ideal) x y p ∘ reduces_rows.lift (ix1 n)) = fun k : Fin 32768 => Cert.Spec.cost x y p n k :=
    funext fun k => (congrArg (val_main_v15 (F := Ideal) x y p) (RowReduce.lift_row reduces_rows n k)).trans
      (entry_eq_cost x y p n ⟨k.val, k.isLt⟩)
  exact congrArg (fun f => Finset.fold min ⊤ f (Finset.univ : Finset (Fin 32768))) hf

/-! ## The result -/

/-- The reference's result is the row minima plus the mean of the potential. -/
theorem result_eq (x : FVec Ideal S8192x64 .f32) (y : FVec Ideal S32768x64 .f32) (p : FVec Ideal S32768 .f32) :
    addf (Host.reduce FloatOps.minimumf (subf (subf (addf (broadcastInDim S8192x32768 ![0, 1] bcast_S8192x1_S8192x32768_0_1 (broadcastInDim S8192x1 ![0] bcast_S8192_S8192x1_0 (Host.reduceAdd (mulf x x) (constant S_ .f32 0x00000000#32) reducesTo_S8192x64_S8192_d1 h_S_))) (broadcastInDim S8192x32768 ![0, 1] bcast_S1x32768_S8192x32768_0_1 (broadcastInDim S1x32768 ![1] bcast_S32768_S1x32768_1 (Host.reduceAdd (mulf y y) (constant S_ .f32 0x00000000#32) reducesTo_S32768x64_S32768_d1 h_S_)))) (mulf (broadcastInDim S8192x32768 ![] bcast_S_S8192x32768 (constant S_ .f32 0x40000000#32)) (Host.dotGeneral dot_S8192x64_S32768x64_S8192x32768_1_1_0_0_n_n none x y))) (broadcastInDim S8192x32768 ![0, 1] bcast_S1x32768_S8192x32768_0_1 (broadcastInDim S1x32768 ![1] bcast_S32768_S1x32768_1 p))) (constant S_ .f32 0x7F800000#32) reducesTo_S8192x32768_S8192_d1 h_S_) (broadcastInDim S8192 ![] bcast_S_S8192 (Host.divf (Host.reduceAdd p (constant S_ .f32 0x00000000#32) reducesTo_S32768_S_d0 h_S_) (constant S_ .f32 0x47000000#32)))
      = Cert.Spec.tail bcast_S_S8192 reducesTo_S32768_S_d0 h_S_ (fun i => Cert.Spec.rowMin x y p (i 0)) p := by
  refine (val_main_v20_eq (F := Ideal) x y p).trans ?_
  have h16 : val_main_v16 (F := Ideal) x y p = fun i => Cert.Spec.rowMin x y p (i 0) := funext fun i => by
    obtain ⟨n, rfl⟩ : ∃ n : Fin 8192, i = ix1 n := ⟨i 0, eq_ix1 i⟩
    exact rowMin_eq x y p n
  unfold val_main_v20 Cert.Spec.tail
  rw [h16]
  rfl

/-- Every run of the reference ends with the specification in its result and its arguments unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v20) = Cert.Spec.tail bcast_S_S8192 reducesTo_S32768_S_d0 h_S_
          (fun i => Cert.Spec.rowMin (m' ((c.tc : Thread nD τ).loc main_arg0)) (m' ((c.tc : Thread nD τ).loc main_arg1)) (m' ((c.tc : Thread nD τ).loc main_arg2)) (i 0))
          (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono (fun _ h c => ⟨(h c).1.trans (result_eq _ _ _), (h c).2⟩)
    (Cert.ReferenceIdeal.Value.run (F := Ideal) m' ρ')

end Cert.ReferenceIdeal.RefValue

end
-- ==== Proof.lean ====
/-
  The certificate: a tiled running-minimum kernel against its whole-array reference.

  For a source matrix x (8192 rows), a target matrix y (32768 rows), both of 64 columns, and potentials p, both
  programs compute, for every source row n,
      min over target rows m of ( ((|x_n|² + |y_m|²) − 2·⟨x_n, y_m⟩) − p_m )  +  mean(p).
  The kernel walks an 8 × 16 grid: for each block of 1024 source rows it visits the sixteen tiles of 2048 target
  rows in turn, keeps the running row minima in a scratch buffer (reset at the first tile, joined at every later
  one) and writes them out at the last tile; the mean of p is added by host operations after the kernel. The
  reference forms the whole 8192 × 32768 cost array and reduces it.
  • The frames of the two kernel programs are the pipeline's frame run over a body run once per case of the tile
    coordinate (first / middle / last tile), with the scratch's contents tracked from point to point.
  • On the extended reals the running minimum over the tiles is the minimum over all target rows, because a minimum
    from the top element over a union of consecutive ranges is the minimum of the ranges' minima; lane sums, the
    matrix product into a zero accumulator and the host's reductions are the same sums, and a narrowing of the
    float format is the identity. No law used needs finiteness, so the precondition is never opened.
  • Both programs end with the same addition of the mean, which is carried along unopened.
  The ideal pass rewrote nothing, so the idealization conjunct is trivial.
-/
import proofs.«164561_j48215302865480_1_alg».proof.Defs
import proofs.«164561_j48215302865480_1_alg».proof.Proof.Gen.Kernel
import proofs.«164561_j48215302865480_1_alg».proof.Proof.Gen.KernelIdeal
import proofs.«164561_j48215302865480_1_alg».proof.Proof.Gen.ReferenceIdeal
import proofs.«164561_j48215302865480_1_alg».proof.Proof.Gen.Pre_finite_inputs
import proofs.«164561_j48215302865480_1_alg».proof.Proof.BodyB.Frame
import proofs.«164561_j48215302865480_1_alg».proof.Proof.BodyI.Frame
import proofs.«164561_j48215302865480_1_alg».proof.Proof.KRun
import proofs.«164561_j48215302865480_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_spec m ρ)

/-- From memories that agree on the arguments both idealized programs end with the row minima plus the mean of the
    potentials in their results. -/
theorem algebraic : Cert.algebraic_KernelIdeal_ReferenceIdeal := by
  intro m ρ m' ρ' _ hagree
  refine ⟨_, Cert.KernelIdeal.KValue.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
